-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x3 .f32) (main_arg1 : IVec S2x3200000 32) (main_arg2 : FVec F S3x16 .f32) (main_arg3 : FVec F S16 .f32) (main_arg4 : FVec F S16x1 .f32) (main_arg5 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3301376 : Shape := ⟨1, ![3301376]⟩
abbrev S3301376x1 : Shape := ⟨2, ![3301376, 1]⟩
abbrev S100000x16 : Shape := ⟨2, ![100000, 16]⟩
abbrev S5000x3 : Shape := ⟨2, ![5000, 3]⟩
abbrev S5000x16 : Shape := ⟨2, ![5000, 16]⟩
abbrev S3301376x16 : Shape := ⟨2, ![3301376, 16]⟩
abbrev S8192x16 : Shape := ⟨2, ![8192, 16]⟩
abbrev S8192x1 : Shape := ⟨2, ![8192, 1]⟩
abbrev S1x16 : Shape := ⟨2, ![1, 16]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 90
  | .vmem => 26
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S_, .i32⟩
  | .hbm, ⟨48, _⟩ => ⟨S3301376, .i32⟩
  | .hbm, ⟨49, _⟩ => ⟨S_, .i32⟩
  | .hbm, ⟨50, _⟩ => ⟨S_, .i32⟩
  | .hbm, ⟨51, _⟩ => ⟨S3301376, .i32⟩
  | .hbm, ⟨52, _⟩ => ⟨S_, .i32⟩
  | .hbm, ⟨53, _⟩ => ⟨S_, .f32⟩
  | .hbm, ⟨54, _⟩ => ⟨S3301376, .f32⟩
  | .hbm, ⟨55, _⟩ => ⟨S3301376x1, .f32⟩
  | .hbm, ⟨56, _⟩ => ⟨S100000x16, .f32⟩
  | .hbm, ⟨57, _⟩ => ⟨S_, .i32⟩
  | .hbm, ⟨58, _⟩ => ⟨S3301376, .i32⟩
  | .hbm, ⟨59, _⟩ => ⟨S3301376, .i1⟩
  | .hbm, ⟨60, _⟩ => ⟨S_, .i32⟩
  | .hbm, ⟨61, _⟩ => ⟨S3301376, .i32⟩
  | .hbm, ⟨62, _⟩ => ⟨S3301376, .i32⟩
  | .hbm, ⟨63, _⟩ => ⟨S3301376, .i32⟩
  | .hbm, ⟨64, _⟩ => ⟨S3301376x1, .i32⟩
  | .hbm, ⟨65, _⟩ => ⟨S3301376x16, .f32⟩
  | .hbm, ⟨66, _⟩ => ⟨S3301376x16, .f32⟩
  | .hbm, ⟨67, _⟩ => ⟨S_, .f32⟩
  | .hbm, ⟨68, _⟩ => ⟨S100000x16, .f32⟩
  | .hbm, ⟨69, _⟩ => ⟨S3301376x1, .i32⟩
  | .hbm, ⟨70, _⟩ => ⟨S100000x16, .f32⟩
  | .hbm, ⟨71, _⟩ => ⟨S1x16, .f32⟩
  | .hbm, ⟨72, _⟩ => ⟨S100000x16, .f32⟩
  | .hbm, ⟨73, _⟩ => ⟨S100000x1, .f32⟩
  | .hbm, ⟨74, _⟩ => ⟨S_, .i32⟩
  | .hbm, ⟨75, _⟩ => ⟨S3301376, .i32⟩
  | .hbm, ⟨76, _⟩ => ⟨S3301376, .i1⟩
  | .hbm, ⟨77, _⟩ => ⟨S_, .i32⟩
  | .hbm, ⟨78, _⟩ => ⟨S3301376, .i32⟩
  | .hbm, ⟨79, _⟩ => ⟨S3301376, .i32⟩
  | .hbm, ⟨80, _⟩ => ⟨S3301376, .i32⟩
  | .hbm, ⟨81, _⟩ => ⟨S3301376x1, .i32⟩
  | .hbm, ⟨82, _⟩ => ⟨S3301376x1, .f32⟩
  | .hbm, ⟨83, _⟩ => ⟨S3301376x1, .f32⟩
  | .hbm, ⟨84, _⟩ => ⟨S_, .f32⟩
  | .hbm, ⟨85, _⟩ => ⟨S100000x1, .f32⟩
  | .hbm, ⟨86, _⟩ => ⟨S3301376x1, .i32⟩
  | .hbm, ⟨87, _⟩ => ⟨S100000x1, .f32⟩
  | .hbm, ⟨88, _⟩ => ⟨S1x1, .f32⟩
  | .hbm, ⟨89, _⟩ => ⟨S100000x1, .f32⟩
  | .local _ .vmem, ⟨0, _⟩ => ⟨S5000x3, .f32⟩
  | .local _ .vmem, ⟨1, _⟩ => ⟨S5000x3, .f32⟩
  | .local _ .vmem, ⟨2, _⟩ => ⟨S3x16, .f32⟩
  | .local _ .vmem, ⟨3, _⟩ => ⟨S5000x16, .f32⟩
  | .local _ .vmem, ⟨4, _⟩ => ⟨S5000x16, .f32⟩
  | .local _ .vmem, ⟨5, _⟩ => ⟨S8192x16, .f32⟩
  | .local _ .vmem, ⟨6, _⟩ => ⟨S8192x16, .f32⟩
  | .local _ .vmem, ⟨7, _⟩ => ⟨S8192x1, .f32⟩
  | .local _ .vmem, ⟨8, _⟩ => ⟨S8192x1, .f32⟩
  | .local _ .vmem, ⟨9, _⟩ => ⟨S8192x16, .f32⟩
  | .local _ .vmem, ⟨10, _⟩ => ⟨S8192x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S5000x1, .f32⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_call1_v0 : Ref sig .tc := ⟨.hbm, 47, rfl⟩
abbrev main_v30 : Ref sig .tc := ⟨.hbm, 48, rfl⟩
abbrev main_c_7 : Ref sig .tc := ⟨.hbm, 49, rfl⟩
abbrev main_call2_v0 : Ref sig .tc := ⟨.hbm, 50, rfl⟩
abbrev main_v31 : Ref sig .tc := ⟨.hbm, 51, rfl⟩
abbrev main_c_8 : Ref sig .tc := ⟨.hbm, 52, rfl⟩
abbrev main_call3_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_c_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![403], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  pads_S3300000_S3301376_013760 : S3300000.Pads (![0] : Fin 1 → Nat) ![1376] ![0] S3301376
  h_S_ : 0 < S_.numel
  shapeCasts_S3301376_S3301376x1 : S3301376.ShapeCasts S3301376x1
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S5000x16_S5000x16_0_0 : ∀ a, (![0, 0] : Fin 2 → Nat) a + S5000x16.size a ≤ S5000x16.size a
  h_S5000x16 : 0 < S5000x16.numel
  bcast_S_S3301376 : S_.BroadcastsInDim S3301376 (![] : Fin 0 → Fin S3301376.rank)
  bcast_S3301376_S3301376x1_0 : S3301376.BroadcastsInDim S3301376x1 (![0] : Fin 1 → Fin S3301376x1.rank)
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x16 : S8192x1.Broadcasts S8192x16
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x1_S16x1_0_0 : ∀ a, (![0, 0] : Fin 2 → Nat) a + S16x1.size a ≤ S16x1.size a
  h_S16x1 : 0 < S16x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S1_S1x1 : S1.ShapeCasts S1x1
  shapeCasts_S5000x1_S5000x1 : S5000x1.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x3_S3x16_S5000x16_1_0_0_1_n_n_wf : DotDims.WF S5000x3 S3x16 S5000x16 [1] [0] [0] [1] [] []
  gather_S100000x16_S3301376x1_S3301376x16_1_0_n_n_0_1_116_wf : GatherDims.WF S100000x16 S3301376x1 S3301376x16 [1] [0] [] [0] [] 1 ![1, 16]
  scatter_S100000x16_S3301376x1_S3301376x16_1_0_0_1_wf : ScatterDims.WF S100000x16 S3301376x1 S3301376x16 [1] [0] [0] 1
  dot_S5000x16_S16x1_S5000x1_1_0_0_1_n_n_wf : DotDims.WF S5000x16 S16x1 S5000x1 [1] [0] [0] [1] [] []
  gather_S100000x1_S3301376x1_S3301376x1_1_0_n_n_0_1_11_wf : GatherDims.WF S100000x1 S3301376x1 S3301376x1 [1] [0] [] [0] [] 1 ![1, 1]
  scatter_S100000x1_S3301376x1_S3301376x1_1_0_0_1_wf : ScatterDims.WF S100000x1 S3301376x1 S3301376x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S3301376x16.size a
  hwx1_0 : ∀ i : grid1.Coords, EltTy.bits .f32 = 32 ∨ (Rect.block (s := S3301376x16) S8192x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S3301376x1.size a
  hwx1_1 : ∀ i : grid1.Coords, EltTy.bits .f32 = 32 ∨ (Rect.block (s := S3301376x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x16.size a ≤ S3301376x16.size a
  hwx1_2 : ∀ i : grid1.Coords, EltTy.bits .f32 = 32 ∨ (Rect.block (s := S3301376x16) S8192x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x1.size a ≤ S16x1.size a
  hwx3_1 : ∀ i : grid3.Coords, EltTy.bits .f32 = 32 ∨ (Rect.block (s := S16x1) S16x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x1.size a ≤ S100000x1.size a
  hwx4_0 : ∀ i : grid4.Coords, EltTy.bits .f32 = 32 ∨ (Rect.block (s := S100000x1) S5000x1.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1.size a ≤ S1x1.size a
  hwx4_1 : ∀ i : grid4.Coords, EltTy.bits .f32 = 32 ∨ (Rect.block (s := S1x1) S1x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x3_S3x16_S5000x16_1_0_0_1_n_n : DotDims S5000x3 S3x16 S5000x16 where
  lhsContracting := [1]
  rhsContracting := [0]
  lhsNonContracting := [0]
  rhsNonContracting := [1]
  lhsBatch := []
  rhsBatch := []
  wf := dot_S5000x3_S3x16_S5000x16_1_0_0_1_n_n_wf
def gather_S100000x16_S3301376x1_S3301376x16_1_0_n_n_0_1_116 : GatherDims S100000x16 S3301376x1 S3301376x16 where
  offsetDims := [1]
  collapsedSliceDims := [0]
  operandBatchingDims := []
  startIndicesBatchingDims := []
  startIndexMap := [0]
  indexVectorDim := 1
  sliceSizes := ![1, 16]
  wf := gather_S100000x16_S3301376x1_S3301376x16_1_0_n_n_0_1_116_wf
def scatter_S100000x16_S3301376x1_S3301376x16_1_0_0_1 : ScatterDims S100000x16 S3301376x1 S3301376x16 where
  updateWindowDims := [1]
  insertedWindowDims := [0]
  scatterDimsToOperandDims := [0]
  indexVectorDim := 1
  wf := scatter_S100000x16_S3301376x1_S3301376x16_1_0_0_1_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S100000x1_S3301376x1_S3301376x1_1_0_n_n_0_1_11 : GatherDims S100000x1 S3301376x1 S3301376x1 where
  offsetDims := [1]
  collapsedSliceDims := [0]
  operandBatchingDims := []
  startIndicesBatchingDims := []
  startIndexMap := [0]
  indexVectorDim := 1
  sliceSizes := ![1, 1]
  wf := gather_S100000x1_S3301376x1_S3301376x1_1_0_n_n_0_1_11_wf
def scatter_S100000x1_S3301376x1_S3301376x1_1_0_0_1 : ScatterDims S100000x1 S3301376x1 S3301376x1 where
  updateWindowDims := [1]
  insertedWindowDims := [0]
  scatterDimsToOperandDims := [0]
  indexVectorDim := 1
  wf := scatter_S100000x1_S3301376x1_S3301376x1_1_0_0_1_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S8192x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S8192x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S5000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S1x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x16, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x1, .f32⟩
  | .hbm, ⟨98, _⟩ => ⟨S3300000x1, .f32⟩
  | .hbm, ⟨99, _⟩ => ⟨S3300000x1, .f32⟩
  | .hbm, ⟨100, _⟩ => ⟨S_, .f32⟩
  | .hbm, ⟨101, _⟩ => ⟨S100000x1, .f32⟩
  | .hbm, ⟨102, _⟩ => ⟨S3300000x1, .i32⟩
  | .hbm, ⟨103, _⟩ => ⟨S100000x1, .f32⟩
  | .hbm, ⟨104, _⟩ => ⟨S1x1, .f32⟩
  | .hbm, ⟨105, _⟩ => ⟨S100000x1, .f32⟩
  | .hbm, ⟨106, _⟩ => ⟨S100000x1, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  dot_S100000x3_S3x16_S100000x16_1_0_0_1_n_n_wf : DotDims.WF S100000x3 S3x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KSpec.lean ====
/-
  The kernel program's host arithmetic, named piece by piece over whole arrays, and each of its five kernel
  regions as one whole-array operation. The graph has 3,200,000 edges and 100,000 self loops; the kernel pads
  the 3,300,000 edge slots to 3,301,376 (403 blocks of 8192) with source 0, destination 0 and coefficient 0.
-/
import proofs.«117660_j18133351924184_1_alg».proof.KernelIdeal
import proofs.«117660_j18133351924184_1_alg».proof.ReferenceIdeal
import proofs.«117660_j18133351924184_1_alg».proof.Proof.Gen.KernelIdeal
import proofs.«117660_j18133351924184_1_alg».proof.Proof.Gen.ReferenceIdeal
import Idealize.ShloMosaic.PureOps.Ideal

noncomputable section

namespace Cert.KernelIdeal.KSpec

open Idealize.ShloMosaic Idealize.SL.Sem Cert.KernelIdeal Cert.KernelIdeal.Facts₀

variable {F : FTy → Type} [FloatOps F]

/-- Row `r` of the edge list followed by the self loops `0 … 99999`. -/
def endsOf (r : Fin 2 → Nat) (hs : S2x3200000.Slices r S1x3200000) (a1 : IVec S2x3200000 32) : IVec S3300000 32 :=
  concatenate S3300000 0 [⟨S3200000, shapeCast S3200000 (extractStridedSlice S1x3200000 r a1 hs) shapeCasts_S1x3200000_S3200000⟩,
    ⟨S100000, iotaInDim S100000 32 0⟩] concatenates_S3200000_S100000_S3300000_d0

/-- The sources: row 0 of the edge list, then the self loops. -/
def src (a1 : IVec S2x3200000 32) : IVec S3300000 32 := endsOf ![0, 0] slices_S2x3200000_S1x3200000_0_0 a1
/-- The destinations: row 1 of the edge list, then the self loops. -/
def dst (a1 : IVec S2x3200000 32) : IVec S3300000 32 := endsOf ![1, 0] slices_S2x3200000_S1x3200000_1_0 a1

/-- A negative node number wraps once: `v + 100000` where `v < 0`. -/
def wrap (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v
/-- The same over the padded edge slots. -/
def wrapP (v : IVec S3301376 32) : IVec S3301376 32 :=
  select (cmpi .slt v (broadcastInDim S3301376 ![] bcast_S_S3301376 (constantI S_ 32 0#32)))
    (addi v (broadcastInDim S3301376 ![] bcast_S_S3301376 (constantI S_ 32 100000#32))) v

/-- The degree of every node: one per edge slot that ends there. -/
def deg (d : IVec S3300000 32) : FVec F S100000 .f32 :=
  Host.scatterAdd scatter_S100000_S3300000x1_S3300000_n_0_0_1 (broadcastInDim S100000 ![] bcast_S_S100000 (constant S_ .f32 0x00000000#32))
    (broadcastInDim S3300000x1 ![0] bcast_S3300000_S3300000x1_0 d) (broadcastInDim S3300000 ![] bcast_S_S3300000 (constant S_ .f32 0x3F800000#32))
/-- `deg ^ (-1/2)` where the degree is positive, else 0. -/
def dis (d : IVec S3300000 32) : FVec F S100000 .f32 :=
  select (cmpf (F := F) .ogt (deg d) (broadcastInDim S100000 ![] bcast_S_S100000 (constant S_ .f32 0x00000000#32))) (Host.rsqrt (deg d))
    (broadcastInDim S100000 ![] bcast_S_S100000 (id (constant S_ .f32 0x00000000#32)))
/-- The coefficient of every edge slot: `dis[src] · dis[dst]`. -/
def norm (s d : IVec S3300000 32) : FVec F S3300000 .f32 :=
  mulf (Host.gather gather_S100000_S3300000x1_S3300000_n_0_n_n_0_1_1 (dis d) (broadcastInDim S3300000x1 ![0] bcast_S3300000_S3300000x1_0 (wrap s)))
    (Host.gather gather_S100000_S3300000x1_S3300000_n_0_n_n_0_1_1 (dis d) (broadcastInDim S3300000x1 ![0] bcast_S3300000_S3300000x1_0 (wrap d)))

/-- Node numbers padded with 1376 zeros. -/
def padI (v : IVec S3300000 32) : IVec S3301376 32 :=
  pad S3301376 ![0] ![1376] ![0] v (id (constantI S_ 32 0#32)) pads_S3300000_S3301376_013760 h_S_
/-- Coefficients padded with 1376 zeros, as a column. -/
def padCol (n : FVec F S3300000 .f32) : FVec F S3301376x1 .f32 :=
  shapeCast S3301376x1 (pad S3301376 ![0] ![1376] ![0] n (sitofp (F := F) .f32 (constantI S_ 32 0#32)) pads_S3300000_S3301376_013760 h_S_)
    shapeCasts_S3301376_S3301376x1

/-- Row `srcP[e]` of a 16-wide node array, for every padded edge slot `e`. -/
def gath16 (h : FVec F S100000x16 .f32) (sP : IVec S3301376 32) : FVec F S3301376x16 .f32 :=
  Host.gather gather_S100000x16_S3301376x1_S3301376x16_1_0_n_n_0_1_116 h (broadcastInDim S3301376x1 ![0] bcast_S3301376_S3301376x1_0 (wrapP sP))
/-- The sum, per node, of the 16-wide messages of the padded edge slots that end there. -/
def scat16 (dP : IVec S3301376 32) (u : FVec F S3301376x16 .f32) : FVec F S100000x16 .f32 :=
  Host.scatterAdd scatter_S100000x16_S3301376x1_S3301376x16_1_0_0_1 (broadcastInDim S100000x16 ![] bcast_S_S100000x16 (constant S_ .f32 0x00000000#32))
    (broadcastInDim S3301376x1 ![0] bcast_S3301376_S3301376x1_0 dP) u
/-- Row `srcP[e]` of a 1-wide node array. -/
def gath1 (h : FVec F S100000x1 .f32) (sP : IVec S3301376 32) : FVec F S3301376x1 .f32 :=
  Host.gather gather_S100000x1_S3301376x1_S3301376x1_1_0_n_n_0_1_11 h (broadcastInDim S3301376x1 ![0] bcast_S3301376_S3301376x1_0 (wrapP sP))
/-- The sum, per node, of the 1-wide messages of the padded edge slots that end there. -/
def scat1 (dP : IVec S3301376 32) (u : FVec F S3301376x1 .f32) : FVec F S100000x1 .f32 :=
  Host.scatterAdd scatter_S100000x1_S3301376x1_S3301376x1_1_0_0_1 (broadcastInDim S100000x1 ![] bcast_S_S100000x1 (constant S_ .f32 0x00000000#32))
    (broadcastInDim S3301376x1 ![0] bcast_S3301376_S3301376x1_0 dP) u

/-- A bias `[16]` as a row `[1, 16]`. -/
def row16 (b : FVec F S16 .f32) : FVec F S1x16 .f32 := shapeCast S1x16 b shapeCasts_S16_S1x16
/-- A bias `[1]` as a row `[1, 1]`. -/
def row1 (b : FVec F S1 .f32) : FVec F S1x1 .f32 := shapeCast S1x1 b shapeCasts_S1_S1x1

/-! ## The five kernel regions, each as one whole-array operation -/

theorem hb_scale : S3301376x1.BroadcastsInDim S3301376x16 (![0, 1] : Fin 2 → Fin S3301376x16.rank) := by decide

/-- Region 0: `x · W1` over all 100,000 rows. -/
def lin1 (x : FVec F S100000x3 .f32) (w : FVec F S3x16 .f32) : FVec F S100000x16 .f32 :=
  Host.dotGeneral Cert.ReferenceIdeal.dot_S100000x3_S3x16_S100000x16_1_0_0_1_n_n none x w
/-- Region 1: every 16-wide row scaled by its slot's coefficient. -/
def scale (g : FVec F S3301376x16 .f32) (n : FVec F S3301376x1 .f32) : FVec F S3301376x16 .f32 :=
  mulf g (broadcastInDim S3301376x16 ![0, 1] hb_scale n)
/-- Region 2: the bias row added to every row, then the maximum with 0. -/
def biasRelu (a : FVec F S100000x16 .f32) (b : FVec F S1x16 .f32) : FVec F S100000x16 .f32 :=
  maximumf (addf a (broadcastInDim S100000x16 ![0, 1] Cert.ReferenceIdeal.Facts₀.bcast_S1x16_S100000x16_0_1 b))
    (broadcastInDim S100000x16 ![] bcast_S_S100000x16 (constant S_ .f32 0x00000000#32))
/-- Region 3: `h · W2` over all 100,000 rows. -/
def lin2 (h : FVec F S100000x16 .f32) (w : FVec F S16x1 .f32) : FVec F S100000x1 .f32 :=
  Host.dotGeneral Cert.ReferenceIdeal.dot_S100000x16_S16x1_S100000x1_1_0_0_1_n_n none h w
/-- Region 4: the bias added to every row. -/
def bias (a : FVec F S100000x1 .f32) (b : FVec F S1x1 .f32) : FVec F S100000x1 .f32 :=
  addf a (broadcastInDim S100000x1 ![0, 1] Cert.ReferenceIdeal.Facts₀.bcast_S1x1_S100000x1_0_1 b)

/-! ## The two layers and the whole program -/

/-- Layer 1 over the padded slots: gather, scale (region 1), sum per destination. -/
def layer16 (h : FVec F S100000x16 .f32) (s d : IVec S3300000 32) (n : FVec F S3300000 .f32) : FVec F S100000x16 .f32 :=
  scat16 (padI d) (scale (gath16 h (padI s)) (padCol n))
/-- Layer 2 over the padded slots: gather, scale on the host, sum per destination. -/
def layer1 (h : FVec F S100000x1 .f32) (s d : IVec S3300000 32) (n : FVec F S3300000 .f32) : FVec F S100000x1 .f32 :=
  scat1 (padI d) (mulf (gath1 h (padI s)) (padCol n))

/-- What the kernel program leaves in its result array, as a function of its six arguments. -/
def kernelVal (x : FVec F S100000x3 .f32) (a1 : IVec S2x3200000 32) (w1 : FVec F S3x16 .f32) (b1 : FVec F S16 .f32)
    (w2 : FVec F S16x1 .f32) (b2 : FVec F S1 .f32) : FVec F S100000x1 .f32 :=
  bias (layer1 (lin2 (biasRelu (layer16 (lin1 x w1) (src a1) (dst a1) (norm (src a1) (dst a1))) (row16 b1)) w2)
    (src a1) (dst a1) (norm (src a1) (dst a1))) (row1 b2)

end Cert.KernelIdeal.KSpec

end
-- ==== Proof.KHost.lean ====
/-
  What each stretch of host operations of the kernel program leaves in the buffers that later items read, in terms
  of the buffers as the stretch found them: the two ends of every edge slot, the degrees and coefficients, their
  padded forms, the gathers and the per-node sums around the five kernel regions; and that a buffer nobody writes
  in between still holds what it held.
-/
import proofs.«117660_j18133351924184_1_alg».proof.Proof.Gen.KernelIdeal.Frame
import proofs.«117660_j18133351924184_1_alg».proof.Proof.KSpec
import Idealize.ShloMosaic.Lib.StableHlo.Run

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-- A stretch none of whose operations writes the buffer leaves it as it was. -/
macro "keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))))

/-! ## Buffers carried across stretches and regions -/

theorem W9_arg0_of0 : W9 m ρ c (Proc.devRef .tc main_arg0) = (m ((c.tc : Thread nD τ).loc main_arg0)) := by
  refine Eq.trans (b := W8 m ρ c (Proc.devRef .tc main_arg0)) (by keeps hostOps0_8) ?_
  refine Eq.trans (b := W7 m ρ c (Proc.devRef .tc main_arg0)) (by keeps hostOps0_7) ?_
  refine Eq.trans (b := W6 m ρ c (Proc.devRef .tc main_arg0)) (by keeps hostOps0_6) ?_
  refine Eq.trans (b := W5 m ρ c (Proc.devRef .tc main_arg0)) (by keeps hostOps0_5) ?_
  refine Eq.trans (b := W4 m ρ c (Proc.devRef .tc main_arg0)) (by keeps hostOps0_4) ?_
  refine Eq.trans (b := W3 m ρ c (Proc.devRef .tc main_arg0)) (by keeps hostOps0_3) ?_
  refine Eq.trans (b := W2 m ρ c (Proc.devRef .tc main_arg0)) (by keeps hostOps0_2) ?_
  refine Eq.trans (b := W1 m ρ c (Proc.devRef .tc main_arg0)) (by keeps hostOps0_1) ?_
  refine Eq.trans (b := W0 m ρ c (Proc.devRef .tc main_arg0)) (by keeps hostOps0) ?_
  rfl

theorem W9_arg2_of0 : W9 m ρ c (Proc.devRef .tc main_arg2) = (m ((c.tc : Thread nD τ).loc main_arg2)) := by
  refine Eq.trans (b := W8 m ρ c (Proc.devRef .tc main_arg2)) (by keeps hostOps0_8) ?_
  refine Eq.trans (b := W7 m ρ c (Proc.devRef .tc main_arg2)) (by keeps hostOps0_7) ?_
  refine Eq.trans (b := W6 m ρ c (Proc.devRef .tc main_arg2)) (by keeps hostOps0_6) ?_
  refine Eq.trans (b := W5 m ρ c (Proc.devRef .tc main_arg2)) (by keeps hostOps0_5) ?_
  refine Eq.trans (b := W4 m ρ c (Proc.devRef .tc main_arg2)) (by keeps hostOps0_4) ?_
  refine Eq.trans (b := W3 m ρ c (Proc.devRef .tc main_arg2)) (by keeps hostOps0_3) ?_
  refine Eq.trans (b := W2 m ρ c (Proc.devRef .tc main_arg2)) (by keeps hostOps0_2) ?_
  refine Eq.trans (b := W1 m ρ c (Proc.devRef .tc main_arg2)) (by keeps hostOps0_1) ?_
  refine Eq.trans (b := W0 m ρ c (Proc.devRef .tc main_arg2)) (by keeps hostOps0) ?_
  rfl

theorem W12_arg3_of0 : W12 m ρ c (Proc.devRef .tc main_arg3) = (m ((c.tc : Thread nD τ).loc main_arg3)) := by
  refine Eq.trans (b := W11 m ρ c (Proc.devRef .tc main_arg3)) (W12_of_ne m ρ c main_arg3 (by decide)) ?_
  refine Eq.trans (b := W10 m ρ c (Proc.devRef .tc main_arg3)) (by keeps hostOps1) ?_
  refine Eq.trans (b := W9 m ρ c (Proc.devRef .tc main_arg3)) (W10_of_ne m ρ c main_arg3 (by decide)) ?_
  refine Eq.trans (b := W8 m ρ c (Proc.devRef .tc main_arg3)) (by keeps hostOps0_8) ?_
  refine Eq.trans (b := W7 m ρ c (Proc.devRef .tc main_arg3)) (by keeps hostOps0_7) ?_
  refine Eq.trans (b := W6 m ρ c (Proc.devRef .tc main_arg3)) (by keeps hostOps0_6) ?_
  refine Eq.trans (b := W5 m ρ c (Proc.devRef .tc main_arg3)) (by keeps hostOps0_5) ?_
  refine Eq.trans (b := W4 m ρ c (Proc.devRef .tc main_arg3)) (by keeps hostOps0_4) ?_
  refine Eq.trans (b := W3 m ρ c (Proc.devRef .tc main_arg3)) (by keeps hostOps0_3) ?_
  refine Eq.trans (b := W2 m ρ c (Proc.devRef .tc main_arg3)) (by keeps hostOps0_2) ?_
  refine Eq.trans (b := W1 m ρ c (Proc.devRef .tc main_arg3)) (by keeps hostOps0_1) ?_
  refine Eq.trans (b := W0 m ρ c (Proc.devRef .tc main_arg3)) (by keeps hostOps0) ?_
  rfl

theorem W14_arg4_of0 : W14 m ρ c (Proc.devRef .tc main_arg4) = (m ((c.tc : Thread nD τ).loc main_arg4)) := by
  refine Eq.trans (b := W13 m ρ c (Proc.devRef .tc main_arg4)) (W14_of_ne m ρ c main_arg4 (by decide)) ?_
  refine Eq.trans (b := W12 m ρ c (Proc.devRef .tc main_arg4)) (by keeps hostOps2) ?_
  refine Eq.trans (b := W11 m ρ c (Proc.devRef .tc main_arg4)) (W12_of_ne m ρ c main_arg4 (by decide)) ?_
  refine Eq.trans (b := W10 m ρ c (Proc.devRef .tc main_arg4)) (by keeps hostOps1) ?_
  refine Eq.trans (b := W9 m ρ c (Proc.devRef .tc main_arg4)) (W10_of_ne m ρ c main_arg4 (by decide)) ?_
  refine Eq.trans (b := W8 m ρ c (Proc.devRef .tc main_arg4)) (by keeps hostOps0_8) ?_
  refine Eq.trans (b := W7 m ρ c (Proc.devRef .tc main_arg4)) (by keeps hostOps0_7) ?_
  refine Eq.trans (b := W6 m ρ c (Proc.devRef .tc main_arg4)) (by keeps hostOps0_6) ?_
  refine Eq.trans (b := W5 m ρ c (Proc.devRef .tc main_arg4)) (by keeps hostOps0_5) ?_
  refine Eq.trans (b := W4 m ρ c (Proc.devRef .tc main_arg4)) (by keeps hostOps0_4) ?_
  refine Eq.trans (b := W3 m ρ c (Proc.devRef .tc main_arg4)) (by keeps hostOps0_3) ?_
  refine Eq.trans (b := W2 m ρ c (Proc.devRef .tc main_arg4)) (by keeps hostOps0_2) ?_
  refine Eq.trans (b := W1 m ρ c (Proc.devRef .tc main_arg4)) (by keeps hostOps0_1) ?_
  refine Eq.trans (b := W0 m ρ c (Proc.devRef .tc main_arg4)) (by keeps hostOps0) ?_
  rfl

theorem W15_arg5_of0 : W15 m ρ c (Proc.devRef .tc main_arg5) = (m ((c.tc : Thread nD τ).loc main_arg5)) := by
  refine Eq.trans (b := W14 m ρ c (Proc.devRef .tc main_arg5)) (W15_of_ne m ρ c main_arg5 (by decide)) ?_
  refine Eq.trans (b := W13 m ρ c (Proc.devRef .tc main_arg5)) (W14_of_ne m ρ c main_arg5 (by decide)) ?_
  refine Eq.trans (b := W12 m ρ c (Proc.devRef .tc main_arg5)) (by keeps hostOps2) ?_
  refine Eq.trans (b := W11 m ρ c (Proc.devRef .tc main_arg5)) (W12_of_ne m ρ c main_arg5 (by decide)) ?_
  refine Eq.trans (b := W10 m ρ c (Proc.devRef .tc main_arg5)) (by keeps hostOps1) ?_
  refine Eq.trans (b := W9 m ρ c (Proc.devRef .tc main_arg5)) (W10_of_ne m ρ c main_arg5 (by decide)) ?_
  refine Eq.trans (b := W8 m ρ c (Proc.devRef .tc main_arg5)) (by keeps hostOps0_8) ?_
  refine Eq.trans (b := W7 m ρ c (Proc.devRef .tc main_arg5)) (by keeps hostOps0_7) ?_
  refine Eq.trans (b := W6 m ρ c (Proc.devRef .tc main_arg5)) (by keeps hostOps0_6) ?_
  refine Eq.trans (b := W5 m ρ c (Proc.devRef .tc main_arg5)) (by keeps hostOps0_5) ?_
  refine Eq.trans (b := W4 m ρ c (Proc.devRef .tc main_arg5)) (by keeps hostOps0_4) ?_
  refine Eq.trans (b := W3 m ρ c (Proc.devRef .tc main_arg5)) (by keeps hostOps0_3) ?_
  refine Eq.trans (b := W2 m ρ c (Proc.devRef .tc main_arg5)) (by keeps hostOps0_2) ?_
  refine Eq.trans (b := W1 m ρ c (Proc.devRef .tc main_arg5)) (by keeps hostOps0_1) ?_
  refine Eq.trans (b := W0 m ρ c (Proc.devRef .tc main_arg5)) (by keeps hostOps0) ?_
  rfl

theorem W2_v3_of1 : W2 m ρ c (Proc.devRef .tc main_v3) = W1 m ρ c (Proc.devRef .tc main_v3) := by
  refine Eq.trans (b := W1 m ρ c (Proc.devRef .tc main_v3)) (by keeps hostOps0_1) ?_
  rfl

theorem W3_v3_of1 : W3 m ρ c (Proc.devRef .tc main_v3) = W1 m ρ c (Proc.devRef .tc main_v3) := by
  refine Eq.trans (b := W2 m ρ c (Proc.devRef .tc main_v3)) (by keeps hostOps0_2) ?_
  refine Eq.trans (b := W1 m ρ c (Proc.devRef .tc main_v3)) (by keeps hostOps0_1) ?_
  rfl

theorem W2_v6_of1 : W2 m ρ c (Proc.devRef .tc main_v6) = W1 m ρ c (Proc.devRef .tc main_v6) := by
  refine Eq.trans (b := W1 m ρ c (Proc.devRef .tc main_v6)) (by keeps hostOps0_1) ?_
  rfl

theorem W5_v6_of1 : W5 m ρ c (Proc.devRef .tc main_v6) = W1 m ρ c (Proc.devRef .tc main_v6) := by
  refine Eq.trans (b := W4 m ρ c (Proc.devRef .tc main_v6)) (by keeps hostOps0_4) ?_
  refine Eq.trans (b := W3 m ρ c (Proc.devRef .tc main_v6)) (by keeps hostOps0_3) ?_
  refine Eq.trans (b := W2 m ρ c (Proc.devRef .tc main_v6)) (by keeps hostOps0_2) ?_
  refine Eq.trans (b := W1 m ρ c (Proc.devRef .tc main_v6)) (by keeps hostOps0_1) ?_
  rfl

theorem W7_v29_of3 : W7 m ρ c (Proc.devRef .tc main_v29) = W3 m ρ c (Proc.devRef .tc main_v29) := by
  refine Eq.trans (b := W6 m ρ c (Proc.devRef .tc main_v29)) (by keeps hostOps0_6) ?_
  refine Eq.trans (b := W5 m ρ c (Proc.devRef .tc main_v29)) (by keeps hostOps0_5) ?_
  refine Eq.trans (b := W4 m ρ c (Proc.devRef .tc main_v29)) (by keeps hostOps0_4) ?_
  refine Eq.trans (b := W3 m ρ c (Proc.devRef .tc main_v29)) (by keeps hostOps0_3) ?_
  rfl

theorem W10_v30_of4 : W10 m ρ c (Proc.devRef .tc main_v30) = W4 m ρ c (Proc.devRef .tc main_v30) := by
  refine Eq.trans (b := W9 m ρ c (Proc.devRef .tc main_v30)) (W10_of_ne m ρ c main_v30 (by decide)) ?_
  refine Eq.trans (b := W8 m ρ c (Proc.devRef .tc main_v30)) (by keeps hostOps0_8) ?_
  refine Eq.trans (b := W7 m ρ c (Proc.devRef .tc main_v30)) (by keeps hostOps0_7) ?_
  refine Eq.trans (b := W6 m ρ c (Proc.devRef .tc main_v30)) (by keeps hostOps0_6) ?_
  refine Eq.trans (b := W5 m ρ c (Proc.devRef .tc main_v30)) (by keeps hostOps0_5) ?_
  refine Eq.trans (b := W4 m ρ c (Proc.devRef .tc main_v30)) (by keeps hostOps0_4) ?_
  rfl

theorem W15_v30_of4 : W15 m ρ c (Proc.devRef .tc main_v30) = W4 m ρ c (Proc.devRef .tc main_v30) := by
  refine Eq.trans (b := W14 m ρ c (Proc.devRef .tc main_v30)) (W15_of_ne m ρ c main_v30 (by decide)) ?_
  refine Eq.trans (b := W13 m ρ c (Proc.devRef .tc main_v30)) (W14_of_ne m ρ c main_v30 (by decide)) ?_
  refine Eq.trans (b := W12 m ρ c (Proc.devRef .tc main_v30)) (by keeps hostOps2) ?_
  refine Eq.trans (b := W11 m ρ c (Proc.devRef .tc main_v30)) (W12_of_ne m ρ c main_v30 (by decide)) ?_
  refine Eq.trans (b := W10 m ρ c (Proc.devRef .tc main_v30)) (by keeps hostOps1) ?_
  refine Eq.trans (b := W9 m ρ c (Proc.devRef .tc main_v30)) (W10_of_ne m ρ c main_v30 (by decide)) ?_
  refine Eq.trans (b := W8 m ρ c (Proc.devRef .tc main_v30)) (by keeps hostOps0_8) ?_
  refine Eq.trans (b := W7 m ρ c (Proc.devRef .tc main_v30)) (by keeps hostOps0_7) ?_
  refine Eq.trans (b := W6 m ρ c (Proc.devRef .tc main_v30)) (by keeps hostOps0_6) ?_
  refine Eq.trans (b := W5 m ρ c (Proc.devRef .tc main_v30)) (by keeps hostOps0_5) ?_
  refine Eq.trans (b := W4 m ρ c (Proc.devRef .tc main_v30)) (by keeps hostOps0_4) ?_
  rfl

theorem W12_v31_of6 : W12 m ρ c (Proc.devRef .tc main_v31) = W6 m ρ c (Proc.devRef .tc main_v31) := by
  refine Eq.trans (b := W11 m ρ c (Proc.devRef .tc main_v31)) (W12_of_ne m ρ c main_v31 (by decide)) ?_
  refine Eq.trans (b := W10 m ρ c (Proc.devRef .tc main_v31)) (by keeps hostOps1) ?_
  refine Eq.trans (b := W9 m ρ c (Proc.devRef .tc main_v31)) (W10_of_ne m ρ c main_v31 (by decide)) ?_
  refine Eq.trans (b := W8 m ρ c (Proc.devRef .tc main_v31)) (by keeps hostOps0_8) ?_
  refine Eq.trans (b := W7 m ρ c (Proc.devRef .tc main_v31)) (by keeps hostOps0_7) ?_
  refine Eq.trans (b := W6 m ρ c (Proc.devRef .tc main_v31)) (by keeps hostOps0_6) ?_
  rfl

theorem W15_v31_of6 : W15 m ρ c (Proc.devRef .tc main_v31) = W6 m ρ c (Proc.devRef .tc main_v31) := by
  refine Eq.trans (b := W14 m ρ c (Proc.devRef .tc main_v31)) (W15_of_ne m ρ c main_v31 (by decide)) ?_
  refine Eq.trans (b := W13 m ρ c (Proc.devRef .tc main_v31)) (W14_of_ne m ρ c main_v31 (by decide)) ?_
  refine Eq.trans (b := W12 m ρ c (Proc.devRef .tc main_v31)) (by keeps hostOps2) ?_
  refine Eq.trans (b := W11 m ρ c (Proc.devRef .tc main_v31)) (W12_of_ne m ρ c main_v31 (by decide)) ?_
  refine Eq.trans (b := W10 m ρ c (Proc.devRef .tc main_v31)) (by keeps hostOps1) ?_
  refine Eq.trans (b := W9 m ρ c (Proc.devRef .tc main_v31)) (W10_of_ne m ρ c main_v31 (by decide)) ?_
  refine Eq.trans (b := W8 m ρ c (Proc.devRef .tc main_v31)) (by keeps hostOps0_8) ?_
  refine Eq.trans (b := W7 m ρ c (Proc.devRef .tc main_v31)) (by keeps hostOps0_7) ?_
  refine Eq.trans (b := W6 m ρ c (Proc.devRef .tc main_v31)) (by keeps hostOps0_6) ?_
  rfl

theorem W11_v33_of9 : W11 m ρ c (Proc.devRef .tc main_v33) = W9 m ρ c (Proc.devRef .tc main_v33) := by
  refine Eq.trans (b := W10 m ρ c (Proc.devRef .tc main_v33)) (by keeps hostOps1) ?_
  refine Eq.trans (b := W9 m ρ c (Proc.devRef .tc main_v33)) (W10_of_ne m ρ c main_v33 (by decide)) ?_
  rfl

theorem W15_v33_of9 : W15 m ρ c (Proc.devRef .tc main_v33) = W9 m ρ c (Proc.devRef .tc main_v33) := by
  refine Eq.trans (b := W14 m ρ c (Proc.devRef .tc main_v33)) (W15_of_ne m ρ c main_v33 (by decide)) ?_
  refine Eq.trans (b := W13 m ρ c (Proc.devRef .tc main_v33)) (W14_of_ne m ρ c main_v33 (by decide)) ?_
  refine Eq.trans (b := W12 m ρ c (Proc.devRef .tc main_v33)) (by keeps hostOps2) ?_
  refine Eq.trans (b := W11 m ρ c (Proc.devRef .tc main_v33)) ((W12_arr m ρ c 1).trans (((dat1 (V11 m ρ) c).arrAt_in 1 rfl _).trans (A_eq1 (V11 m ρ) c 1))) ?_
  refine Eq.trans (b := W10 m ρ c (Proc.devRef .tc main_v33)) (by keeps hostOps1) ?_
  refine Eq.trans (b := W9 m ρ c (Proc.devRef .tc main_v33)) (W10_of_ne m ρ c main_v33 (by decide)) ?_
  rfl

/-! ## The stretches before region 0: edge ends, degrees, coefficients, and their padded forms -/

theorem W1_v3 : W1 m ρ c (Proc.devRef .tc main_v3) = KSpec.src (m ((c.tc : Thread nD τ).loc main_arg1)) := by
  show StableHlo.after hostOps0 (W0 m ρ c) _ = _
  after_results; rfl
theorem W1_v6 : W1 m ρ c (Proc.devRef .tc main_v6) = KSpec.dst (m ((c.tc : Thread nD τ).loc main_arg1)) := by
  show StableHlo.after hostOps0 (W0 m ρ c) _ = _
  after_results; rfl
theorem W1_v12 : W1 m ρ c (Proc.devRef .tc main_v12) = cmpf (F := F) .ogt (KSpec.deg (F := F) (KSpec.dst (m ((c.tc : Thread nD τ).loc main_arg1)))) (broadcastInDim S100000 ![] Facts₀.bcast_S_S100000 (constant S_ .f32 0x00000000#32)) := by
  show StableHlo.after hostOps0 (W0 m ρ c) _ = _
  after_results; rfl
theorem W1_v13 : W1 m ρ c (Proc.devRef .tc main_v13) = Host.rsqrt (KSpec.deg (F := F) (KSpec.dst (m ((c.tc : Thread nD τ).loc main_arg1)))) := by
  show StableHlo.after hostOps0 (W0 m ρ c) _ = _
  after_results; rfl
theorem W1_cst_2 : W1 m ρ c (Proc.devRef .tc main_cst_2) = constant (F := F) S_ .f32 0x00000000#32 := by
  show StableHlo.after hostOps0 (W0 m ρ c) _ = _
  after_results

theorem W2_v14 : W2 m ρ c (Proc.devRef .tc main_v14) = KSpec.dis (F := F) (KSpec.dst (m ((c.tc : Thread nD τ).loc main_arg1))) := by
  show StableHlo.after hostOps0_1 (W1 m ρ c) _ = _
  generalize hV : W1 m ρ c = Vin
  after_results
  subst hV
  rw [W1_v12, W1_v13, W1_cst_2]
  rfl

set_option maxHeartbeats 4000000 in
theorem W3_v29 : W3 m ρ c (Proc.devRef .tc main_v29) = KSpec.norm (F := F) (KSpec.src (m ((c.tc : Thread nD τ).loc main_arg1))) (KSpec.dst (m ((c.tc : Thread nD τ).loc main_arg1))) := by
  show StableHlo.after hostOps0_2 (W2 m ρ c) _ = _
  generalize hV : W2 m ρ c = Vin
  after_results
  subst hV
  rw [W2_v3_of1, W2_v6_of1, W2_v14, W1_v3, W1_v6]
  rfl

theorem W3_c_6 : W3 m ρ c (Proc.devRef .tc main_c_6) = constantI S_ 32 0#32 := by
  show StableHlo.after hostOps0_2 (W2 m ρ c) _ = _
  generalize hV : W2 m ρ c = Vin
  after_results

theorem W4_v30 : W4 m ρ c (Proc.devRef .tc main_v30) = KSpec.padI (KSpec.src (m ((c.tc : Thread nD τ).loc main_arg1))) := by
  show StableHlo.after hostOps0_3 (W3 m ρ c) _ = _
  generalize hV : W3 m ρ c = Vin
  after_results
  subst hV
  rw [W3_v3_of1, W3_c_6, W1_v3]
  rfl

theorem W5_c_7 : W5 m ρ c (Proc.devRef .tc main_c_7) = constantI S_ 32 0#32 := by
  show StableHlo.after hostOps0_4 (W4 m ρ c) _ = _
  generalize hV : W4 m ρ c = Vin
  after_results

theorem W6_v31 : W6 m ρ c (Proc.devRef .tc main_v31) = KSpec.padI (KSpec.dst (m ((c.tc : Thread nD τ).loc main_arg1))) := by
  show StableHlo.after hostOps0_5 (W5 m ρ c) _ = _
  generalize hV : W5 m ρ c = Vin
  after_results
  subst hV
  rw [W5_v6_of1, W5_c_7, W1_v6]
  rfl

theorem W7_c_8 : W7 m ρ c (Proc.devRef .tc main_c_8) = constantI S_ 32 0#32 := by
  show StableHlo.after hostOps0_6 (W6 m ρ c) _ = _
  generalize hV : W6 m ρ c = Vin
  after_results

theorem W8_v32 : W8 m ρ c (Proc.devRef .tc main_v32) = pad S3301376 ![0] ![1376] ![0] (KSpec.norm (F := F) (KSpec.src (m ((c.tc : Thread nD τ).loc main_arg1))) (KSpec.dst (m ((c.tc : Thread nD τ).loc main_arg1)))) (sitofp (F := F) .f32 (constantI S_ 32 0#32)) Facts₀.pads_S3300000_S3301376_013760 Facts₀.h_S_ := by
  show StableHlo.after hostOps0_7 (W7 m ρ c) _ = _
  generalize hV : W7 m ρ c = Vin
  after_results
  subst hV
  rw [W7_v29_of3, W7_c_8, W3_v29]
  rfl

theorem W9_v33 : W9 m ρ c (Proc.devRef .tc main_v33) = KSpec.padCol (KSpec.norm (F := F) (KSpec.src (m ((c.tc : Thread nD τ).loc main_arg1))) (KSpec.dst (m ((c.tc : Thread nD τ).loc main_arg1)))) := by
  show StableHlo.after hostOps0_8 (W8 m ρ c) _ = _
  generalize hV : W8 m ρ c = Vin
  after_results
  subst hV
  rw [W8_v32]
  rfl

/-! ## The stretches between the regions -/

theorem W11_v41 : W11 m ρ c (Proc.devRef .tc main_v41) = KSpec.gath16 (W10 m ρ c (Proc.devRef .tc main_v34)) (W10 m ρ c (Proc.devRef .tc main_v30)) := by
  show StableHlo.after hostOps1 (W10 m ρ c) _ = _
  generalize hV : W10 m ρ c = Vin
  after_results
  subst hV
  rfl

theorem W13_v45 : W13 m ρ c (Proc.devRef .tc main_v45) = KSpec.scat16 (W12 m ρ c (Proc.devRef .tc main_v31)) (W12 m ρ c (Proc.devRef .tc main_v42)) := by
  show StableHlo.after hostOps2 (W12 m ρ c) _ = _
  generalize hV : W12 m ρ c = Vin
  after_results
  subst hV
  rfl

theorem W13_v46 : W13 m ρ c (Proc.devRef .tc main_v46) = KSpec.row16 (W12 m ρ c (Proc.devRef .tc main_arg3)) := by
  show StableHlo.after hostOps2 (W12 m ρ c) _ = _
  generalize hV : W12 m ρ c = Vin
  after_results
  subst hV
  rfl

set_option maxHeartbeats 4000000 in
theorem W16_v59 : W16 m ρ c (Proc.devRef .tc main_v59) = KSpec.scat1 (W15 m ρ c (Proc.devRef .tc main_v31)) (mulf (KSpec.gath1 (W15 m ρ c (Proc.devRef .tc main_v48)) (W15 m ρ c (Proc.devRef .tc main_v30))) (W15 m ρ c (Proc.devRef .tc main_v33))) := by
  show StableHlo.after hostOps4 (W15 m ρ c) _ = _
  generalize hV : W15 m ρ c = Vin
  after_results
  subst hV
  rfl

theorem W16_v60 : W16 m ρ c (Proc.devRef .tc main_v60) = KSpec.row1 (W15 m ρ c (Proc.devRef .tc main_arg5)) := by
  show StableHlo.after hostOps4 (W15 m ρ c) _ = _
  generalize hV : W15 m ρ c = Vin
  after_results
  subst hV
  rfl

end Cert.KernelIdeal.KHost

end
-- ==== Proof.Reg0.lean ====
/-
  Region 0 (the first linear layer): the 20 blocks of 5000 rows tile the array, and block t of the result is the block's rows of x times W1; so after the region the result array is x · W1.
-/
import proofs.«117660_j18133351924184_1_alg».proof.Proof.Gen.KernelIdeal.Frame
import proofs.«117660_j18133351924184_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.SL.Sem Idealize.ShloMosaic.ValueIdx
open Cert.KernelIdeal Cert.KernelIdeal.Gen

/-! ## The block product at an entry -/

/-- Row axis of the left operand: the entry's row. -/
theorem lhs_blk_0 (p : Fin 5000) (q : Fin 16) (k : dot_S5000x3_S3x16_S5000x16_1_0_0_1_n_n.contr.Idx) :
    (dot_S5000x3_S3x16_S5000x16_1_0_0_1_n_n.lhsIdx (ix2 p q) k 0).val = p.val := by
  unfold DotDims.lhsIdx
  rw [dif_neg (show ¬(0 : Fin S5000x3.rank) ∈ dot_S5000x3_S3x16_S5000x16_1_0_0_1_n_n.lhsBatch by decide),
    dif_pos (show (0 : Fin S5000x3.rank) ∈ dot_S5000x3_S3x16_S5000x16_1_0_0_1_n_n.lhsNonContracting by decide)]
  rfl

/-- Column axis of the left operand: the contracted coordinate. -/
theorem lhs_blk_1 (p : Fin 5000) (q : Fin 16) (k : dot_S5000x3_S3x16_S5000x16_1_0_0_1_n_n.contr.Idx) :
    (dot_S5000x3_S3x16_S5000x16_1_0_0_1_n_n.lhsIdx (ix2 p q) k 1).val = (k ⟨0, by decide⟩).val :=
  dot_S5000x3_S3x16_S5000x16_1_0_0_1_n_n.lhsIdx_val_of_single (cl := 1) rfl (ix2 p q) k

/-- Row axis of the right operand: the contracted coordinate. -/
theorem rhs_blk_0 (p : Fin 5000) (q : Fin 16) (k : dot_S5000x3_S3x16_S5000x16_1_0_0_1_n_n.contr.Idx) :
    (dot_S5000x3_S3x16_S5000x16_1_0_0_1_n_n.rhsIdx (ix2 p q) k 0).val = (k ⟨0, by decide⟩).val :=
  dot_S5000x3_S3x16_S5000x16_1_0_0_1_n_n.rhsIdx_val_of_single (cr := 0) rfl (ix2 p q) k

/-- Column axis of the right operand: the entry's column. -/
theorem rhs_blk_1 (p : Fin 5000) (q : Fin 16) (k : dot_S5000x3_S3x16_S5000x16_1_0_0_1_n_n.contr.Idx) :
    (dot_S5000x3_S3x16_S5000x16_1_0_0_1_n_n.rhsIdx (ix2 p q) k 1).val = q.val := by
  unfold DotDims.rhsIdx
  rw [dif_neg (show ¬(1 : Fin S3x16.rank) ∈ dot_S5000x3_S3x16_S5000x16_1_0_0_1_n_n.rhsBatch by decide),
    dif_pos (show (1 : Fin S3x16.rank) ∈ dot_S5000x3_S3x16_S5000x16_1_0_0_1_n_n.rhsNonContracting by decide)]
  rfl

/-- Entry (p, q) of the block product is the sum over the three columns of the block's row p times column q of the weights. -/
theorem pay_apply (x : Vec Ideal S5000x3 .f32) (w : Vec Ideal S3x16 .f32) (p : Fin 5000) (q : Fin 16) :
    k0_pay1 (F := Ideal) x w (ix2 p q) = ∑ k : Fin 3, x (ix2 p k) * w (ix2 k q) := by
  unfold k0_pay1
  show FloatOps.matmul dot_S5000x3_S3x16_S5000x16_1_0_0_1_n_n none _ _ (constant S5000x16 .f32 0x00000000#32) (ix2 p q) = _
  rw [Ideal.matmul_constant_zero_apply,
    ← Equiv.sum_comp (contrEquiv1 dot_S5000x3_S3x16_S5000x16_1_0_0_1_n_n 3 rfl rfl).symm]
  refine Finset.sum_congr rfl fun k _ => ?_
  have hk := contrEquiv1_symm_val dot_S5000x3_S3x16_S5000x16_1_0_0_1_n_n 3 rfl rfl k
  have hl : dot_S5000x3_S3x16_S5000x16_1_0_0_1_n_n.lhsIdx (ix2 p q)
      ((contrEquiv1 dot_S5000x3_S3x16_S5000x16_1_0_0_1_n_n 3 rfl rfl).symm k) = ix2 p k := by
    funext a; apply Fin.ext
    match a with
    | ⟨0, _⟩ => exact lhs_blk_0 _ _ _
    | ⟨1, _⟩ => exact (lhs_blk_1 _ _ _).trans hk
  have hr : dot_S5000x3_S3x16_S5000x16_1_0_0_1_n_n.rhsIdx (ix2 p q)
      ((contrEquiv1 dot_S5000x3_S3x16_S5000x16_1_0_0_1_n_n 3 rfl rfl).symm k) = ix2 k q := by
    funext a; apply Fin.ext
    match a with
    | ⟨0, _⟩ => exact (rhs_blk_0 _ _ _).trans hk
    | ⟨1, _⟩ => exact rhs_blk_1 _ _ _
  rw [hl, hr]
  rfl

/-! ## The whole product at an entry -/

theorem lhs_arr_0 (r : Fin 100000) (q : Fin 16) (k : Cert.ReferenceIdeal.dot_S100000x3_S3x16_S100000x16_1_0_0_1_n_n.contr.Idx) :
    (Cert.ReferenceIdeal.dot_S100000x3_S3x16_S100000x16_1_0_0_1_n_n.lhsIdx (ix2 r q) k 0).val = r.val := by
  unfold DotDims.lhsIdx
  rw [dif_neg (show ¬(0 : Fin Cert.ReferenceIdeal.S100000x3.rank) ∈ Cert.ReferenceIdeal.dot_S100000x3_S3x16_S100000x16_1_0_0_1_n_n.lhsBatch by decide),
    dif_pos (show (0 : Fin Cert.ReferenceIdeal.S100000x3.rank) ∈ Cert.ReferenceIdeal.dot_S100000x3_S3x16_S100000x16_1_0_0_1_n_n.lhsNonContracting by decide)]
  rfl

theorem lhs_arr_1 (r : Fin 100000) (q : Fin 16) (k : Cert.ReferenceIdeal.dot_S100000x3_S3x16_S100000x16_1_0_0_1_n_n.contr.Idx) :
    (Cert.ReferenceIdeal.dot_S100000x3_S3x16_S100000x16_1_0_0_1_n_n.lhsIdx (ix2 r q) k 1).val = (k ⟨0, by decide⟩).val :=
  Cert.ReferenceIdeal.dot_S100000x3_S3x16_S100000x16_1_0_0_1_n_n.lhsIdx_val_of_single (cl := 1) rfl (ix2 r q) k

theorem rhs_arr_0 (r : Fin 100000) (q : Fin 16) (k : Cert.ReferenceIdeal.dot_S100000x3_S3x16_S100000x16_1_0_0_1_n_n.contr.Idx) :
    (Cert.ReferenceIdeal.dot_S100000x3_S3x16_S100000x16_1_0_0_1_n_n.rhsIdx (ix2 r q) k 0).val = (k ⟨0, by decide⟩).val :=
  Cert.ReferenceIdeal.dot_S100000x3_S3x16_S100000x16_1_0_0_1_n_n.rhsIdx_val_of_single (cr := 0) rfl (ix2 r q) k

theorem rhs_arr_1 (r : Fin 100000) (q : Fin 16) (k : Cert.ReferenceIdeal.dot_S100000x3_S3x16_S100000x16_1_0_0_1_n_n.contr.Idx) :
    (Cert.ReferenceIdeal.dot_S100000x3_S3x16_S100000x16_1_0_0_1_n_n.rhsIdx (ix2 r q) k 1).val = q.val := by
  unfold DotDims.rhsIdx
  rw [dif_neg (show ¬(1 : Fin Cert.ReferenceIdeal.S3x16.rank) ∈ Cert.ReferenceIdeal.dot_S100000x3_S3x16_S100000x16_1_0_0_1_n_n.rhsBatch by decide),
    dif_pos (show (1 : Fin Cert.ReferenceIdeal.S3x16.rank) ∈ Cert.ReferenceIdeal.dot_S100000x3_S3x16_S100000x16_1_0_0_1_n_n.rhsNonContracting by decide)]
  rfl

/-- Entry (r, q) of x · W1 is the sum over the three columns of row r of x times column q of W1. -/
theorem lin1_apply (x : FVec Ideal S100000x3 .f32) (w : FVec Ideal S3x16 .f32) (r : Fin 100000) (q : Fin 16) :
    KSpec.lin1 (F := Ideal) x w (ix2 r q) = ∑ k : Fin 3, x (ix2 r k) * w (ix2 k q) := by
  unfold KSpec.lin1
  show FloatOps.dotGeneral Cert.ReferenceIdeal.dot_S100000x3_S3x16_S100000x16_1_0_0_1_n_n none _ x w (ix2 r q) = _
  rw [Ideal.dotGeneral_apply,
    ← Equiv.sum_comp (contrEquiv1 Cert.ReferenceIdeal.dot_S100000x3_S3x16_S100000x16_1_0_0_1_n_n 3 rfl rfl).symm]
  refine Finset.sum_congr rfl fun k _ => ?_
  have hk := contrEquiv1_symm_val Cert.ReferenceIdeal.dot_S100000x3_S3x16_S100000x16_1_0_0_1_n_n 3 rfl rfl k
  have hl : Cert.ReferenceIdeal.dot_S100000x3_S3x16_S100000x16_1_0_0_1_n_n.lhsIdx (ix2 r q)
      ((contrEquiv1 Cert.ReferenceIdeal.dot_S100000x3_S3x16_S100000x16_1_0_0_1_n_n 3 rfl rfl).symm k) = ix2 r k := by
    funext a; apply Fin.ext
    match a with
    | ⟨0, _⟩ => exact lhs_arr_0 _ _ _
    | ⟨1, _⟩ => exact (lhs_arr_1 _ _ _).trans hk
  have hr : Cert.ReferenceIdeal.dot_S100000x3_S3x16_S100000x16_1_0_0_1_n_n.rhsIdx (ix2 r q)
      ((contrEquiv1 Cert.ReferenceIdeal.dot_S100000x3_S3x16_S100000x16_1_0_0_1_n_n 3 rfl rfl).symm k) = ix2 k q := by
    funext a; apply Fin.ext
    match a with
    | ⟨0, _⟩ => exact (rhs_arr_0 _ _ _).trans hk
    | ⟨1, _⟩ => exact rhs_arr_1 _ _ _
  rw [hl, hr]

/-! ## One block of the product -/

/-- If a block holds rows n·5000 … n·5000+4999 of x and the weights block holds W1, then entry (p, q) of the block
    product is entry (n·5000+p, q) of x · W1. -/
theorem blk_entry (X : FVec Ideal S100000x3 .f32) (W : FVec Ideal S3x16 .f32) (x : Vec Ideal S5000x3 .f32) (w : Vec Ideal S3x16 .f32)
    (n : Nat) (p : Fin 5000) (q : Fin 16) (hr : n * 5000 + p.val < 100000)
    (hx : ∀ k : Fin 3, x (ix2 p k) = X (ix2 (⟨n * 5000 + p.val, hr⟩ : Fin 100000) k))
    (hw : ∀ k : Fin 3, w (ix2 k q) = W (ix2 k q)) :
    k0_pay1 (F := Ideal) x w (ix2 p q) = KSpec.lin1 (F := Ideal) X W (ix2 (⟨n * 5000 + p.val, hr⟩ : Fin 100000) q) := by
  rw [pay_apply, lin1_apply]
  exact Finset.sum_congr rfl fun k _ => by rw [hx k, hw k]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the block of x and the block of the result sit at row block t, column
    block 0; the weights block at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · W1. -/
theorem flushed_eq (c : Dev nD) (t : Fin cfg0.N) :
    (dat0 (F := Ideal) V c).flushed 2 t
      = ((cfg0.win 2).blk t).view.read (Elt Ideal) (KSpec.lin1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x3) hz, View.ld_unit_zero (S := S3x16) hz]
  obtain ⟨e00, e01, e10, e11, e20, e21⟩ := idx_facts t
  have hN : cfg0.N = 20 := N_0
  have ht : t.val < 20 := hN ▸ t.isLt
  refine funext fun (j : S5000x16.Idx) => ?_
  show k0_pay1 (F := Ideal) (iblk0 V c 0 t) (iblk0 V c 1 t) j
    = KSpec.lin1 (F := Ideal) (V c main_arg0) (V c main_arg2) (((cfg0.win 2).blk t).view.emb j)
  obtain ⟨p, q, rfl⟩ : ∃ (p : Fin 5000) (q : Fin 16), j = ix2 p q := ⟨j 0, j 1, eq_ix2 j⟩
  have hp : p.val < 5000 := p.isLt
  have hr : t.val * 5000 + p.val < 100000 := by omega
  have he : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 16 + 1 * q.val = q.val; omega
  rw [he]
  refine blk_entry _ _ _ _ t.val p q hr (fun k => ?_) (fun k => ?_)
  · show V c main_arg0 (((cfg0.win 0).blk t).view.emb (ix2 p k)) = V c main_arg0 (ix2 (⟨t.val * 5000 + p.val, hr⟩ : Fin 100000) k)
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 3 + 1 * k.val = k.val; omega
  · show V c main_arg2 (((cfg0.win 1).blk t).view.emb (ix2 k q)) = V c main_arg2 (ix2 k q)
    refine congrArg _ ?_
    funext a; apply Fin.ext
    match a with
    | ⟨0, _⟩ => show win0_1.index t (0 : Fin 2) * 3 + 1 * k.val = k.val; omega
    | ⟨1, _⟩ => show win0_1.index t (1 : Fin 2) * 16 + 1 * q.val = q.val; omega

/-- An index of the result array is in point t's block iff each coordinate is in the block's range on its axis. -/
theorem mem_blk (t : Fin cfg0.N) (i : S100000x16.Idx) :
    i ∈ ((cfg0.win 2).blk t).view.set
      ↔ ∀ a : Fin 2, win0_2.index t a * S5000x16.size a ≤ (i a).val ∧ (i a).val < win0_2.index t a * S5000x16.size a + S5000x16.size a := by
  show i ∈ ((View.whole main_v34).slice (win0_2.rect t)).set ↔ _
  rw [View.set_slice_whole, Rect.mem_set_unit]
  exact Iff.rfl

/-- The 20 row blocks tile the array: row r lies in the block of point r / 5000. -/
theorem cover (i : S100000x16.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 16 := (i 1).isLt
  have hlt : (i 0).val / 5000 < cfg0.N := by rw [hN]; omega
  refine ⟨⟨(i 0).val / 5000, hlt⟩, flush0_2 _, ?_⟩
  rw [mem_blk]
  obtain ⟨-, -, -, -, e20, e21⟩ := idx_facts ⟨(i 0).val / 5000, hlt⟩
  have e20' : win0_2.index ⟨(i 0).val / 5000, hlt⟩ (0 : Fin 2) = (i 0).val / 5000 := e20
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    omega
  | ⟨1, _⟩ =>
    show win0_2.index ⟨(i 0).val / 5000, hlt⟩ (1 : Fin 2) * 16 ≤ (i 1).val
      ∧ (i 1).val < win0_2.index ⟨(i 0).val / 5000, hlt⟩ (1 : Fin 2) * 16 + 16
    omega

/-- After the region its result array is the whole-array operation of its two input arrays as the region found them. -/
theorem arr (c : Dev nD) :
    (dat0 (F := Ideal) V c).arrAt 2 cfg0.N = KSpec.lin1 (F := Ideal) (V c main_arg0) (V c main_arg2) :=
  (dat0 (F := Ideal) V c).arrAt_eq_of_cover 2 (KSpec.lin1 (F := Ideal) (V c main_arg0) (V c main_arg2))
    (fun t _ => flushed_eq V c t) cover

end Cert.KernelIdeal.Reg0

end
-- ==== Proof.Reg1.lean ====
/-
  Region 1 (the message scale): the 403 blocks of 8192 edge slots tile the padded array, and every 16-wide row of a block is scaled by its slot's coefficient.
-/
import proofs.«117660_j18133351924184_1_alg».proof.Proof.Gen.KernelIdeal.Frame
import proofs.«117660_j18133351924184_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem hz : (![0, 0] : Fin 2 → Nat) = fun _ => 0 :=
  funext fun a => by match a with | ⟨0, _⟩ => rfl | ⟨1, _⟩ => rfl

/-- The body's product at row `r`, lane `k` of a block: the row's entry times the row's coefficient. -/
theorem pay_apply (g : Vec Ideal S8192x16 .f32) (n : Vec Ideal S8192x1 .f32) (r : Fin 8192) (k : Fin 16) :
    k1_pay1 g n (ix2 r k) = g (ix2 r k) * n (ix2 r 0) := by
  unfold k1_pay1
  rw [shapeCast_self, shapeCast_self, mulf_apply]
  congr 1
  refine broadcastTo_apply n _ (ix2 r k) (ix2 r 0) fun a => ?_
  match a with
  | ⟨0, _⟩ => rfl
  | ⟨1, _⟩ => rfl

/-- The whole-array scaling at slot `e`, lane `k`. -/
theorem scale_apply (g : FVec Ideal S3301376x16 .f32) (n : FVec Ideal S3301376x1 .f32) (e : Fin 3301376) (k : Fin 16) :
    KSpec.scale (F := Ideal) g n (ix2 e k) = g (ix2 e k) * n (ix2 e 0) := by
  unfold KSpec.scale
  rw [mulf_apply]
  congr 1
  refine broadcastInDim_apply _ _ n (ix2 e k) (ix2 e 0) fun a => ?_
  match a with
  | ⟨0, _⟩ => rfl
  | ⟨1, _⟩ => rfl

/-- Block `b`'s product at an entry is the whole-array scaling at the slot `b · 8192 + r`, when the two blocks hold those rows of the two arrays. -/
theorem point_eq (g : Vec Ideal S8192x16 .f32) (n : Vec Ideal S8192x1 .f32)
    (A : FVec Ideal S3301376x16 .f32) (B : FVec Ideal S3301376x1 .f32) (b : Nat)
    (hg : ∀ (r : Fin 8192) (k : Fin 16) (e : Fin 3301376), e.val = b * 8192 + r.val → g (ix2 r k) = A (ix2 e k))
    (hn : ∀ (r : Fin 8192) (e : Fin 3301376), e.val = b * 8192 + r.val → n (ix2 r 0) = B (ix2 e 0))
    (j : S8192x16.Idx) (i : S3301376x16.Idx) (h0 : (i 0).val = b * 8192 + (j 0).val) (h1 : (i 1).val = (j 1).val) :
    k1_pay1 g n j = KSpec.scale (F := Ideal) A B i := by
  obtain ⟨r, k, rfl⟩ : ∃ (r : Fin 8192) (k : Fin 16), j = ix2 r k := ⟨j 0, j 1, eq_ix2 j⟩
  obtain ⟨e, k', rfl⟩ : ∃ (e : Fin 3301376) (k' : Fin 16), i = ix2 e k' := ⟨i 0, i 1, eq_ix2 i⟩
  have hk : k' = k := Fin.ext h1
  subst hk
  rw [pay_apply, scale_apply, hg r k' e h0, hn r e h0]

/-- The index maps over the 403 grid points: every window's block number is the point's number along the rows and 0 along the lanes. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Window 0's block at point `t` holds rows `8192 t … 8192 t + 8191` of the message array. -/
theorem blk0_apply (c : Dev nD) (t : Fin cfg1.N) (r : Fin 8192) (k : Fin 16) (e : Fin 3301376) (he : e.val = t.val * 8192 + r.val) :
    (iblk1 V c 0 t : Vec Ideal S8192x16 .f32) (ix2 r k) = (V c main_v41 : S3301376x16.Idx → Elt Ideal .f32) (ix2 e k) := by
  obtain ⟨e0, e1, -⟩ := idx_facts t
  show V c main_v41 (((cfg1.win 0).blk t).view.emb (ix2 r k)) = V c main_v41 (ix2 e k)
  congr 1
  funext a; apply Fin.ext
  match a with
  | ⟨0, _⟩ => show win1_0.index t (0 : Fin 2) * 8192 + 1 * r.val = e.val; omega
  | ⟨1, _⟩ => show win1_0.index t (1 : Fin 2) * 16 + 1 * k.val = k.val; omega

/-- Window 1's block at point `t` holds the same rows of the coefficient column. -/
theorem blk1_apply (c : Dev nD) (t : Fin cfg1.N) (r : Fin 8192) (e : Fin 3301376) (he : e.val = t.val * 8192 + r.val) :
    (iblk1 V c 1 t : Vec Ideal S8192x1 .f32) (ix2 r 0) = (V c main_v33 : S3301376x1.Idx → Elt Ideal .f32) (ix2 e 0) := by
  obtain ⟨-, -, e2, e3, -⟩ := idx_facts t
  show V c main_v33 (((cfg1.win 1).blk t).view.emb (ix2 r 0)) = V c main_v33 (ix2 e 0)
  congr 1
  funext a; apply Fin.ext
  match a with
  | ⟨0, _⟩ => show win1_1.index t (0 : Fin 2) * 8192 + 1 * r.val = e.val; omega
  | ⟨1, _⟩ => show win1_1.index t (1 : Fin 2) * 1 + 1 * 0 = 0; omega

/-- WHAT POINT `t` WRITES BACK is block `t` of the whole-array scaling of the two arrays as the region found them. -/
theorem flushed_eq (c : Dev nD) (t : Fin cfg1.N) :
    (dat1 (F := Ideal) V c).flushed 2 t
      = ((cfg1.win 2).blk t).view.read (Elt Ideal) (KSpec.scale (F := Ideal) (V c main_v41) (V c main_v33)) := by
  show (cfg1.win 2).cut (grid1.coords t) ((dat1 V c).after 2 t) = _
  rw [after1_2]
  unfold out1_2
  rw [View.canon_unit_zero hz]
  simp only [View.ld_unit_zero (S := S8192x16) hz, View.ld_unit_zero (S := S8192x1) hz]
  obtain ⟨-, -, -, -, e4, e5⟩ := idx_facts t
  funext j
  refine point_eq (iblk1 V c 0 t) (iblk1 V c 1 t) (V c main_v41) (V c main_v33) t.val
    (fun r k e he => blk0_apply V c t r k e he) (fun r e he => blk1_apply V c t r e he) j
    (((cfg1.win 2).blk t).view.emb j) ?_ ?_
  · show win1_2.index t (0 : Fin 2) * 8192 + 1 * (j 0).val = t.val * 8192 + (j 0).val; omega
  · show win1_2.index t (1 : Fin 2) * 16 + 1 * (j 1).val = (j 1).val; omega

/-- A slot-and-lane index is in point `t`'s block iff each coordinate is in the block's range on its axis. -/
theorem mem_blk (t : Fin cfg1.N) (i : S3301376x16.Idx) :
    i ∈ ((cfg1.win 2).blk t).view.set ↔ ∀ a : Fin 2, win1_2.index t a * S8192x16.size a ≤ (i a).val ∧ (i a).val < win1_2.index t a * S8192x16.size a + S8192x16.size a := by
  show i ∈ ((View.whole main_v42).slice (win1_2.rect t)).set ↔ _
  rw [View.set_slice_whole, Rect.mem_set_unit]
  exact Iff.rfl

/-- The 403 blocks tile the padded array: slot `e` is in the block of point `e / 8192`. -/
theorem covered (i : S3301376x16.Idx) :
    ∃ t : Fin cfg1.N, (cfg1.win 2).flush t = true ∧ i ∈ ((cfg1.win 2).blk t).view.set := by
  have hi0 : (i 0).val < 3301376 := (i 0).isLt
  have hi1 : (i 1).val < 16 := (i 1).isLt
  have hN : cfg1.N = 403 := N_1
  let t : Fin cfg1.N := ⟨(i 0).val / 8192, by rw [hN]; omega⟩
  obtain ⟨-, -, -, -, e4, e5⟩ := idx_facts t
  have ht : t.val = (i 0).val / 8192 := rfl
  refine ⟨t, flush1_2 t, ?_⟩
  rw [mem_blk]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 16 ≤ (i 1).val ∧ (i 1).val < win1_2.index t (1 : Fin 2) * 16 + 16; omega

/-- After the region its result array is the whole-array operation of its two input arrays as the region found them. -/
theorem arr (c : Dev nD) :
    (dat1 (F := Ideal) V c).arrAt 2 cfg1.N = KSpec.scale (F := Ideal) (V c main_v41) (V c main_v33) := by
  exact (dat1 (F := Ideal) V c).arrAt_eq_of_cover 2 (KSpec.scale (F := Ideal) (V c main_v41) (V c main_v33))
    (fun t _ => flushed_eq V c t) covered

end Cert.KernelIdeal.Reg1

end
-- ==== Proof.Reg2.lean ====
/-
  Region 2 (bias and ReLU): block by block, the bias row is added to every row and the maximum with 0 is taken.
-/
import proofs.«117660_j18133351924184_1_alg».proof.Proof.Gen.KernelIdeal.Frame
import proofs.«117660_j18133351924184_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's result at row `r`, column `k` of a block: the block's entry plus the bias row's `k`-th entry, then the maximum with 0. -/
theorem pay_apply (a : Vec Ideal S5000x16 .f32) (b : Vec Ideal S1x16 .f32) (r : Fin 5000) (k : Fin 16) :
    k2_pay1 a b (ix2 r k) = max (a (ix2 r k) + b (ix2 (0 : Fin 1) k)) (Ideal.ofBits .f32 0x00000000#32) := by
  unfold k2_pay1
  rw [shapeCast_self, shapeCast_self]
  show max (a (ix2 r k) + broadcastTo S5000x16 b broadcasts_S1x16_S5000x16 (ix2 r k)) (Ideal.ofBits .f32 0x00000000#32) = _
  rw [broadcastTo_apply b broadcasts_S1x16_S5000x16 (ix2 r k) (ix2 (0 : Fin 1) k)
    (fun a => by match a with | ⟨0, _⟩ => rfl | ⟨1, _⟩ => rfl)]

/-- The whole-array operation at row `r`, column `k`: the same expression of the whole arrays. -/
theorem spec_apply (a : FVec Ideal S100000x16 .f32) (b : FVec Ideal S1x16 .f32) (r : Fin 100000) (k : Fin 16) :
    KSpec.biasRelu (F := Ideal) a b (ix2 r k) = max (a (ix2 r k) + b (ix2 (0 : Fin 1) k)) (Ideal.ofBits .f32 0x00000000#32) := by
  unfold KSpec.biasRelu
  rw [maximumf_apply, addf_apply,
    broadcastInDim_apply ![0, 1] Cert.ReferenceIdeal.Facts₀.bcast_S1x16_S100000x16_0_1 b (ix2 r k) (ix2 (0 : Fin 1) k)
      (fun a => by match a with | ⟨0, _⟩ => rfl | ⟨1, _⟩ => rfl),
    broadcastInDim_apply ![] Facts₀.bcast_S_S100000x16 (constant (F := Ideal) S_ .f32 0x00000000#32) (ix2 r k) ix0 (fun a => a.elim0)]
  rfl

/-- A block entry and an array entry in the same column, the block holding the array's entry there and the block's
    bias row being the array's: the body's result is the whole-array operation's. -/
theorem point (A : FVec Ideal S100000x16 .f32) (B : FVec Ideal S1x16 .f32) (x0 : Vec Ideal S5000x16 .f32) (x1 : Vec Ideal S1x16 .f32)
    (j : S5000x16.Idx) (i : S100000x16.Idx) (h0 : x0 j = A i) (h1 : ∀ k : Fin 16, x1 (ix2 (0 : Fin 1) k) = B (ix2 (0 : Fin 1) k))
    (hcol : (i 1).val = (j 1).val) : k2_pay1 x0 x1 j = KSpec.biasRelu (F := Ideal) A B i := by
  obtain ⟨r, k, rfl⟩ : ∃ (r : Fin 5000) (k : Fin 16), j = ix2 r k := ⟨j 0, j 1, eq_ix2 j⟩
  obtain ⟨R, K, rfl⟩ : ∃ (R : Fin 100000) (K : Fin 16), i = ix2 R K := ⟨i 0, i 1, eq_ix2 i⟩
  obtain rfl : K = k := Fin.ext hcol
  rw [pay_apply, spec_apply, h0, h1]

/-- The windows' block indices at each of the 20 points: the blocks of windows 0 and 2 move with the point along the rows, window 1's stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole-array operation. -/
theorem flushed_eq (c : Dev nD) (t : Fin cfg2.N) :
    (dat2 (F := Ideal) V c).flushed 2 t = ((cfg2.win 2).blk t).view.read (Elt Ideal) (KSpec.biasRelu (F := Ideal) (V c main_v45) (V c main_v46)) := by
  show (cfg2.win 2).cut (grid2.coords t) ((dat2 V c).after 2 t) = _
  rw [after2_2]
  unfold out2_2
  rw [View.canon_unit_zero hz]
  simp only [View.ld_unit_zero (S := S5000x16) hz, View.ld_unit_zero (S := S1x16) hz]
  obtain ⟨e0, e1, e2, e3, e4, e5⟩ := idx_facts t
  funext j
  show k2_pay1 (iblk2 V c 0 t) (iblk2 V c 1 t) j = KSpec.biasRelu (F := Ideal) (V c main_v45) (V c main_v46) (((cfg2.win 2).blk t).view.emb j)
  refine point (V c main_v45) (V c main_v46) (iblk2 V c 0 t) (iblk2 V c 1 t) j (((cfg2.win 2).blk t).view.emb j) ?_ ?_ ?_
  · show V c main_v45 (((cfg2.win 0).blk t).view.emb j) = V c main_v45 (((cfg2.win 2).blk t).view.emb j)
    refine congrArg (V c main_v45) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 16 + 1 * (j 1).val = win2_2.index t (1 : Fin 2) * 16 + 1 * (j 1).val; omega
  · intro k
    show V c main_v46 (((cfg2.win 1).blk t).view.emb (ix2 (0 : Fin 1) k)) = V c main_v46 (ix2 (0 : Fin 1) k)
    refine congrArg (V c main_v46) (funext fun a => Fin.ext ?_)
    match a with
    | ⟨0, _⟩ => show win2_1.index t (0 : Fin 2) * 1 + 1 * 0 = 0; omega
    | ⟨1, _⟩ => show win2_1.index t (1 : Fin 2) * 16 + 1 * k.val = k.val; omega
  · show win2_2.index t (1 : Fin 2) * 16 + 1 * (j 1).val = (j 1).val; omega

/-- An index of the array is in point `t`'s block iff each coordinate is in the block's range on its axis. -/
theorem mem_blk (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v47).slice (win2_2.rect t)).set ↔ _
  rw [View.set_slice_whole, Rect.mem_set_unit]
  exact Iff.rfl

/-- Every row `r` is in the block of point `r / 5000`. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 20 := N_2
  let t : Fin cfg2.N := ⟨(i 0).val / 5000, by rw [hN]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- After the region its result array is the whole-array operation of its two input arrays as the region found them. -/
theorem arr (c : Dev nD) :
    (dat2 (F := Ideal) V c).arrAt 2 cfg2.N = KSpec.biasRelu (F := Ideal) (V c main_v45) (V c main_v46) :=
  (dat2 (F := Ideal) V c).arrAt_eq_of_cover 2 (KSpec.biasRelu (F := Ideal) (V c main_v45) (V c main_v46))
    (fun t _ => flushed_eq V c t) cover

end Cert.KernelIdeal.Reg2

end
-- ==== Proof.Reg3.lean ====
/-
  Region 3 (the second linear layer): block t of the result is the block's rows of the hidden array times W2.
-/
import proofs.«117660_j18133351924184_1_alg».proof.Proof.Gen.KernelIdeal.Frame
import proofs.«117660_j18133351924184_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Idealize.ShloMosaic Idealize.ShloMosaic.TcCoe Idealize.SL.Sem Idealize.ShloMosaic.ValueIdx
open Cert.KernelIdeal Cert.KernelIdeal.Gen

/-! ## The block product at an entry -/

/-- Row axis of the left operand: the entry's row. -/
theorem lhs_blk_0 (p : Fin 5000) (q : Fin 1) (k : dot_S5000x16_S16x1_S5000x1_1_0_0_1_n_n.contr.Idx) :
    (dot_S5000x16_S16x1_S5000x1_1_0_0_1_n_n.lhsIdx (ix2 p q) k 0).val = p.val := by
  unfold DotDims.lhsIdx
  rw [dif_neg (show ¬(0 : Fin S5000x16.rank) ∈ dot_S5000x16_S16x1_S5000x1_1_0_0_1_n_n.lhsBatch by decide),
    dif_pos (show (0 : Fin S5000x16.rank) ∈ dot_S5000x16_S16x1_S5000x1_1_0_0_1_n_n.lhsNonContracting by decide)]
  rfl

/-- Column axis of the left operand: the contracted coordinate. -/
theorem lhs_blk_1 (p : Fin 5000) (q : Fin 1) (k : dot_S5000x16_S16x1_S5000x1_1_0_0_1_n_n.contr.Idx) :
    (dot_S5000x16_S16x1_S5000x1_1_0_0_1_n_n.lhsIdx (ix2 p q) k 1).val = (k ⟨0, by decide⟩).val :=
  dot_S5000x16_S16x1_S5000x1_1_0_0_1_n_n.lhsIdx_val_of_single (cl := 1) rfl (ix2 p q) k

/-- Row axis of the right operand: the contracted coordinate. -/
theorem rhs_blk_0 (p : Fin 5000) (q : Fin 1) (k : dot_S5000x16_S16x1_S5000x1_1_0_0_1_n_n.contr.Idx) :
    (dot_S5000x16_S16x1_S5000x1_1_0_0_1_n_n.rhsIdx (ix2 p q) k 0).val = (k ⟨0, by decide⟩).val :=
  dot_S5000x16_S16x1_S5000x1_1_0_0_1_n_n.rhsIdx_val_of_single (cr := 0) rfl (ix2 p q) k

/-- Column axis of the right operand: the entry's column. -/
theorem rhs_blk_1 (p : Fin 5000) (q : Fin 1) (k : dot_S5000x16_S16x1_S5000x1_1_0_0_1_n_n.contr.Idx) :
    (dot_S5000x16_S16x1_S5000x1_1_0_0_1_n_n.rhsIdx (ix2 p q) k 1).val = q.val := by
  unfold DotDims.rhsIdx
  rw [dif_neg (show ¬(1 : Fin S16x1.rank) ∈ dot_S5000x16_S16x1_S5000x1_1_0_0_1_n_n.rhsBatch by decide),
    dif_pos (show (1 : Fin S16x1.rank) ∈ dot_S5000x16_S16x1_S5000x1_1_0_0_1_n_n.rhsNonContracting by decide)]
  rfl

/-- Entry (p, q) of the block product is the sum over the sixteen columns of the block's row p times column q of the
    weights (the reshape to the same shape changes nothing). -/
theorem pay_apply (x : Vec Ideal S5000x16 .f32) (w : Vec Ideal S16x1 .f32) (p : Fin 5000) (q : Fin 1) :
    k3_pay1 (F := Ideal) x w (ix2 p q) = ∑ k : Fin 16, x (ix2 p k) * w (ix2 k q) := by
  unfold k3_pay1
  show FloatOps.matmul dot_S5000x16_S16x1_S5000x1_1_0_0_1_n_n none _ _ (constant S5000x1 .f32 0x00000000#32) (ix2 p q) = _
  rw [Ideal.matmul_constant_zero_apply,
    ← Equiv.sum_comp (contrEquiv1 dot_S5000x16_S16x1_S5000x1_1_0_0_1_n_n 16 rfl rfl).symm]
  refine Finset.sum_congr rfl fun k _ => ?_
  have hk := contrEquiv1_symm_val dot_S5000x16_S16x1_S5000x1_1_0_0_1_n_n 16 rfl rfl k
  have hl : dot_S5000x16_S16x1_S5000x1_1_0_0_1_n_n.lhsIdx (ix2 p q)
      ((contrEquiv1 dot_S5000x16_S16x1_S5000x1_1_0_0_1_n_n 16 rfl rfl).symm k) = ix2 p k := by
    funext a; apply Fin.ext
    match a with
    | ⟨0, _⟩ => exact lhs_blk_0 _ _ _
    | ⟨1, _⟩ => exact (lhs_blk_1 _ _ _).trans hk
  have hr : dot_S5000x16_S16x1_S5000x1_1_0_0_1_n_n.rhsIdx (ix2 p q)
      ((contrEquiv1 dot_S5000x16_S16x1_S5000x1_1_0_0_1_n_n 16 rfl rfl).symm k) = ix2 k q := by
    funext a; apply Fin.ext
    match a with
    | ⟨0, _⟩ => exact (rhs_blk_0 _ _ _).trans hk
    | ⟨1, _⟩ => exact rhs_blk_1 _ _ _
  rw [hl, hr]
  show shapeCast S5000x16 x shapeCasts_S5000x16_S5000x16 (ix2 p k) * w (ix2 k q) = x (ix2 p k) * w (ix2 k q)
  rw [shapeCast_self]

/-! ## The whole product at an entry -/

theorem lhs_arr_0 (r : Fin 100000) (q : Fin 1) (k : Cert.ReferenceIdeal.dot_S100000x16_S16x1_S100000x1_1_0_0_1_n_n.contr.Idx) :
    (Cert.ReferenceIdeal.dot_S100000x16_S16x1_S100000x1_1_0_0_1_n_n.lhsIdx (ix2 r q) k 0).val = r.val := by
  unfold DotDims.lhsIdx
  rw [dif_neg (show ¬(0 : Fin Cert.ReferenceIdeal.S100000x16.rank) ∈ Cert.ReferenceIdeal.dot_S100000x16_S16x1_S100000x1_1_0_0_1_n_n.lhsBatch by decide),
    dif_pos (show (0 : Fin Cert.ReferenceIdeal.S100000x16.rank) ∈ Cert.ReferenceIdeal.dot_S100000x16_S16x1_S100000x1_1_0_0_1_n_n.lhsNonContracting by decide)]
  rfl

theorem lhs_arr_1 (r : Fin 100000) (q : Fin 1) (k : Cert.ReferenceIdeal.dot_S100000x16_S16x1_S100000x1_1_0_0_1_n_n.contr.Idx) :
    (Cert.ReferenceIdeal.dot_S100000x16_S16x1_S100000x1_1_0_0_1_n_n.lhsIdx (ix2 r q) k 1).val = (k ⟨0, by decide⟩).val :=
  Cert.ReferenceIdeal.dot_S100000x16_S16x1_S100000x1_1_0_0_1_n_n.lhsIdx_val_of_single (cl := 1) rfl (ix2 r q) k

theorem rhs_arr_0 (r : Fin 100000) (q : Fin 1) (k : Cert.ReferenceIdeal.dot_S100000x16_S16x1_S100000x1_1_0_0_1_n_n.contr.Idx) :
    (Cert.ReferenceIdeal.dot_S100000x16_S16x1_S100000x1_1_0_0_1_n_n.rhsIdx (ix2 r q) k 0).val = (k ⟨0, by decide⟩).val :=
  Cert.ReferenceIdeal.dot_S100000x16_S16x1_S100000x1_1_0_0_1_n_n.rhsIdx_val_of_single (cr := 0) rfl (ix2 r q) k

theorem rhs_arr_1 (r : Fin 100000) (q : Fin 1) (k : Cert.ReferenceIdeal.dot_S100000x16_S16x1_S100000x1_1_0_0_1_n_n.contr.Idx) :
    (Cert.ReferenceIdeal.dot_S100000x16_S16x1_S100000x1_1_0_0_1_n_n.rhsIdx (ix2 r q) k 1).val = q.val := by
  unfold DotDims.rhsIdx
  rw [dif_neg (show ¬(1 : Fin Cert.ReferenceIdeal.S16x1.rank) ∈ Cert.ReferenceIdeal.dot_S100000x16_S16x1_S100000x1_1_0_0_1_n_n.rhsBatch by decide),
    dif_pos (show (1 : Fin Cert.ReferenceIdeal.S16x1.rank) ∈ Cert.ReferenceIdeal.dot_S100000x16_S16x1_S100000x1_1_0_0_1_n_n.rhsNonContracting by decide)]
  rfl

/-- Entry (r, q) of h · W2 is the sum over the sixteen columns of row r of h times column q of W2. -/
theorem lin2_apply (x : FVec Ideal S100000x16 .f32) (w : FVec Ideal S16x1 .f32) (r : Fin 100000) (q : Fin 1) :
    KSpec.lin2 (F := Ideal) x w (ix2 r q) = ∑ k : Fin 16, x (ix2 r k) * w (ix2 k q) := by
  unfold KSpec.lin2
  show FloatOps.dotGeneral Cert.ReferenceIdeal.dot_S100000x16_S16x1_S100000x1_1_0_0_1_n_n none _ x w (ix2 r q) = _
  rw [Ideal.dotGeneral_apply,
    ← Equiv.sum_comp (contrEquiv1 Cert.ReferenceIdeal.dot_S100000x16_S16x1_S100000x1_1_0_0_1_n_n 16 rfl rfl).symm]
  refine Finset.sum_congr rfl fun k _ => ?_
  have hk := contrEquiv1_symm_val Cert.ReferenceIdeal.dot_S100000x16_S16x1_S100000x1_1_0_0_1_n_n 16 rfl rfl k
  have hl : Cert.ReferenceIdeal.dot_S100000x16_S16x1_S100000x1_1_0_0_1_n_n.lhsIdx (ix2 r q)
      ((contrEquiv1 Cert.ReferenceIdeal.dot_S100000x16_S16x1_S100000x1_1_0_0_1_n_n 16 rfl rfl).symm k) = ix2 r k := by
    funext a; apply Fin.ext
    match a with
    | ⟨0, _⟩ => exact lhs_arr_0 _ _ _
    | ⟨1, _⟩ => exact (lhs_arr_1 _ _ _).trans hk
  have hr : Cert.ReferenceIdeal.dot_S100000x16_S16x1_S100000x1_1_0_0_1_n_n.rhsIdx (ix2 r q)
      ((contrEquiv1 Cert.ReferenceIdeal.dot_S100000x16_S16x1_S100000x1_1_0_0_1_n_n 16 rfl rfl).symm k) = ix2 k q := by
    funext a; apply Fin.ext
    match a with
    | ⟨0, _⟩ => exact (rhs_arr_0 _ _ _).trans hk
    | ⟨1, _⟩ => exact rhs_arr_1 _ _ _
  rw [hl, hr]

/-! ## One block of the product -/

/-- If a block holds rows n·5000 … n·5000+4999 of h and the weights block holds W2, then entry (p, q) of the block
    product is entry (n·5000+p, q) of h · W2. -/
theorem blk_entry (X : FVec Ideal S100000x16 .f32) (W : FVec Ideal S16x1 .f32) (x : Vec Ideal S5000x16 .f32) (w : Vec Ideal S16x1 .f32)
    (n : Nat) (p : Fin 5000) (q : Fin 1) (hr : n * 5000 + p.val < 100000)
    (hx : ∀ k : Fin 16, x (ix2 p k) = X (ix2 (⟨n * 5000 + p.val, hr⟩ : Fin 100000) k))
    (hw : ∀ k : Fin 16, w (ix2 k q) = W (ix2 k q)) :
    k3_pay1 (F := Ideal) x w (ix2 p q) = KSpec.lin2 (F := Ideal) X W (ix2 (⟨n * 5000 + p.val, hr⟩ : Fin 100000) q) := by
  rw [pay_apply, lin2_apply]
  exact Finset.sum_congr rfl fun k _ => by rw [hx k, hw k]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the block of h and the block of the result sit at row block t, column
    block 0; the weights block at (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of h · W2. -/
theorem flushed_eq (c : Dev nD) (t : Fin cfg3.N) :
    (dat3 (F := Ideal) V c).flushed 2 t
      = ((cfg3.win 2).blk t).view.read (Elt Ideal) (KSpec.lin2 (F := Ideal) (V c main_v47) (V c main_arg4)) := by
  show (cfg3.win 2).cut (grid3.coords t) ((dat3 V c).after 2 t) = _
  rw [after3_2]
  unfold out3_2
  rw [View.canon_unit_zero hz]
  simp only [View.ld_unit_zero (S := S5000x16) hz, View.ld_unit_zero (S := S16x1) hz]
  obtain ⟨e00, e01, e10, e11, e20, e21⟩ := idx_facts t
  have hN : cfg3.N = 20 := N_3
  have ht : t.val < 20 := hN ▸ t.isLt
  refine funext fun (j : S5000x1.Idx) => ?_
  show k3_pay1 (F := Ideal) (iblk3 V c 0 t) (iblk3 V c 1 t) j
    = KSpec.lin2 (F := Ideal) (V c main_v47) (V c main_arg4) (((cfg3.win 2).blk t).view.emb j)
  obtain ⟨p, q, rfl⟩ : ∃ (p : Fin 5000) (q : Fin 1), j = ix2 p q := ⟨j 0, j 1, eq_ix2 j⟩
  have hp : p.val < 5000 := p.isLt
  have hr : t.val * 5000 + p.val < 100000 := by omega
  have he : ((cfg3.win 2).blk t).view.emb (ix2 p q) = ix2 (⟨t.val * 5000 + p.val, hr⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 1 + 1 * q.val = q.val; omega
  rw [he]
  refine blk_entry _ _ _ _ t.val p q hr (fun k => ?_) (fun k => ?_)
  · show V c main_v47 (((cfg3.win 0).blk t).view.emb (ix2 p k)) = V c main_v47 (ix2 (⟨t.val * 5000 + p.val, hr⟩ : Fin 100000) k)
    refine congrArg _ ?_
    funext a; apply Fin.ext
    match a with
    | ⟨0, _⟩ => show win3_0.index t (0 : Fin 2) * 5000 + 1 * p.val = t.val * 5000 + p.val; omega
    | ⟨1, _⟩ => show win3_0.index t (1 : Fin 2) * 16 + 1 * k.val = k.val; omega
  · show V c main_arg4 (((cfg3.win 1).blk t).view.emb (ix2 k q)) = V c main_arg4 (ix2 k q)
    refine congrArg _ ?_
    funext a; apply Fin.ext
    match a with
    | ⟨0, _⟩ => show win3_1.index t (0 : Fin 2) * 16 + 1 * k.val = k.val; omega
    | ⟨1, _⟩ => show win3_1.index t (1 : Fin 2) * 1 + 1 * q.val = q.val; omega

/-- An index of the result array is in point t's block iff each coordinate is in the block's range on its axis. -/
theorem mem_blk (t : Fin cfg3.N) (i : S100000x1.Idx) :
    i ∈ ((cfg3.win 2).blk t).view.set
      ↔ ∀ a : Fin 2, win3_2.index t a * S5000x1.size a ≤ (i a).val ∧ (i a).val < win3_2.index t a * S5000x1.size a + S5000x1.size a := by
  show i ∈ ((View.whole main_v48).slice (win3_2.rect t)).set ↔ _
  rw [View.set_slice_whole, Rect.mem_set_unit]
  exact Iff.rfl

/-- The 20 row blocks tile the array: row r lies in the block of point r / 5000. -/
theorem cover (i : S100000x1.Idx) :
    ∃ t : Fin cfg3.N, (cfg3.win 2).flush t = true ∧ i ∈ ((cfg3.win 2).blk t).view.set := by
  have hN : cfg3.N = 20 := N_3
  have hi0 : (i 0).val < 100000 := (i 0).isLt
  have hi1 : (i 1).val < 1 := (i 1).isLt
  have hlt : (i 0).val / 5000 < cfg3.N := by rw [hN]; omega
  refine ⟨⟨(i 0).val / 5000, hlt⟩, flush3_2 _, ?_⟩
  rw [mem_blk]
  obtain ⟨-, -, -, -, e20, e21⟩ := idx_facts ⟨(i 0).val / 5000, hlt⟩
  have e20' : win3_2.index ⟨(i 0).val / 5000, hlt⟩ (0 : Fin 2) = (i 0).val / 5000 := e20
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    omega
  | ⟨1, _⟩ =>
    show win3_2.index ⟨(i 0).val / 5000, hlt⟩ (1 : Fin 2) * 1 ≤ (i 1).val
      ∧ (i 1).val < win3_2.index ⟨(i 0).val / 5000, hlt⟩ (1 : Fin 2) * 1 + 1
    omega

/-- After the region its result array is the whole-array operation of its two input arrays as the region found them. -/
theorem arr (c : Dev nD) :
    (dat3 (F := Ideal) V c).arrAt 2 cfg3.N = KSpec.lin2 (F := Ideal) (V c main_v47) (V c main_arg4) :=
  (dat3 (F := Ideal) V c).arrAt_eq_of_cover 2 (KSpec.lin2 (F := Ideal) (V c main_v47) (V c main_arg4))
    (fun t _ => flushed_eq V c t) cover

end Cert.KernelIdeal.Reg3

end
-- ==== Proof.Reg4.lean ====
/-
  Region 4 (the output bias): block by block, the bias is added to every row.
-/
import proofs.«117660_j18133351924184_1_alg».proof.Proof.Gen.KernelIdeal.Frame
import proofs.«117660_j18133351924184_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem hz : (![0, 0] : Fin 2 → Nat) = fun _ => 0 :=
  funext fun a => by match a with | ⟨0, _⟩ => rfl | ⟨1, _⟩ => rfl

/-- The body's sum at row `r` of a block: the row's entry plus the one bias entry. -/
theorem pay_apply (a : Vec Ideal S5000x1 .f32) (b : Vec Ideal S1x1 .f32) (r : Fin 5000) :
    k4_pay1 a b (ix2 r 0) = a (ix2 r 0) + b (ix2 0 0) := by
  unfold k4_pay1
  rw [shapeCast_self, shapeCast_self, addf_apply]
  congr 1
  refine broadcastTo_apply b _ (ix2 r 0) (ix2 0 0) fun d => ?_
  match d with
  | ⟨0, _⟩ => rfl
  | ⟨1, _⟩ => rfl

/-- The whole-array bias at row `e`. -/
theorem bias_apply (a : FVec Ideal S100000x1 .f32) (b : FVec Ideal S1x1 .f32) (e : Fin 100000) :
    KSpec.bias (F := Ideal) a b (ix2 e 0) = a (ix2 e 0) + b (ix2 0 0) := by
  unfold KSpec.bias
  rw [addf_apply]
  congr 1
  refine broadcastInDim_apply _ _ b (ix2 e 0) (ix2 0 0) fun d => ?_
  match d with
  | ⟨0, _⟩ => rfl
  | ⟨1, _⟩ => rfl

/-- Block `q`'s sum at an entry is the whole-array bias at row `q · 5000 + r`, when the first block holds those rows of the array and the second is the bias array itself. -/
theorem point_eq (a : Vec Ideal S5000x1 .f32) (b : Vec Ideal S1x1 .f32)
    (A : FVec Ideal S100000x1 .f32) (B : FVec Ideal S1x1 .f32) (q : Nat)
    (ha : ∀ (r : Fin 5000) (e : Fin 100000), e.val = q * 5000 + r.val → a (ix2 r 0) = A (ix2 e 0))
    (hb : b (ix2 0 0) = B (ix2 0 0))
    (j : S5000x1.Idx) (i : S100000x1.Idx) (h0 : (i 0).val = q * 5000 + (j 0).val) :
    k4_pay1 a b j = KSpec.bias (F := Ideal) A B i := by
  obtain ⟨r, z, rfl⟩ : ∃ (r : Fin 5000) (z : Fin 1), j = ix2 r z := ⟨j 0, j 1, eq_ix2 j⟩
  obtain ⟨e, z', rfl⟩ : ∃ (e : Fin 100000) (z' : Fin 1), i = ix2 e z' := ⟨i 0, i 1, eq_ix2 i⟩
  obtain rfl : z = 0 := Subsingleton.elim _ _
  obtain rfl : z' = 0 := Subsingleton.elim _ _
  rw [pay_apply, bias_apply, ha r e h0, hb]

/-- The index maps over the 20 grid points: the row windows' block number is the point's number, and the bias window stays at block 0. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Window 0's block at point `t` holds rows `5000 t … 5000 t + 4999` of the column. -/
theorem blk0_apply (c : Dev nD) (t : Fin cfg4.N) (r : Fin 5000) (e : Fin 100000) (he : e.val = t.val * 5000 + r.val) :
    (iblk4 V c 0 t : Vec Ideal S5000x1 .f32) (ix2 r 0) = (V c main_v59 : S100000x1.Idx → Elt Ideal .f32) (ix2 e 0) := by
  obtain ⟨e0, e1, -⟩ := idx_facts t
  show V c main_v59 (((cfg4.win 0).blk t).view.emb (ix2 r 0)) = V c main_v59 (ix2 e 0)
  congr 1
  funext d; apply Fin.ext
  match d with
  | ⟨0, _⟩ => show win4_0.index t (0 : Fin 2) * 5000 + 1 * r.val = e.val; omega
  | ⟨1, _⟩ => show win4_0.index t (1 : Fin 2) * 1 + 1 * 0 = 0; omega

/-- Window 1's block at every point is the one-entry bias array. -/
theorem blk1_apply (c : Dev nD) (t : Fin cfg4.N) :
    (iblk4 V c 1 t : Vec Ideal S1x1 .f32) (ix2 0 0) = (V c main_v60 : S1x1.Idx → Elt Ideal .f32) (ix2 0 0) := by
  obtain ⟨-, -, e2, e3, -⟩ := idx_facts t
  show V c main_v60 (((cfg4.win 1).blk t).view.emb (ix2 0 0)) = V c main_v60 (ix2 0 0)
  congr 1
  funext d; apply Fin.ext
  match d with
  | ⟨0, _⟩ => show win4_1.index t (0 : Fin 2) * 1 + 1 * 0 = 0; omega
  | ⟨1, _⟩ => show win4_1.index t (1 : Fin 2) * 1 + 1 * 0 = 0; omega

/-- WHAT POINT `t` WRITES BACK is block `t` of the whole-array bias of the two arrays as the region found them. -/
theorem flushed_eq (c : Dev nD) (t : Fin cfg4.N) :
    (dat4 (F := Ideal) V c).flushed 2 t
      = ((cfg4.win 2).blk t).view.read (Elt Ideal) (KSpec.bias (F := Ideal) (V c main_v59) (V c main_v60)) := by
  show (cfg4.win 2).cut (grid4.coords t) ((dat4 V c).after 2 t) = _
  rw [after4_2]
  unfold out4_2
  rw [View.canon_unit_zero hz]
  simp only [View.ld_unit_zero (S := S5000x1) hz, View.ld_unit_zero (S := S1x1) hz]
  obtain ⟨-, -, -, -, e4, e5⟩ := idx_facts t
  funext j
  refine point_eq (iblk4 V c 0 t) (iblk4 V c 1 t) (V c main_v59) (V c main_v60) t.val
    (fun r e he => blk0_apply V c t r e he) (blk1_apply V c t) j
    (((cfg4.win 2).blk t).view.emb j) ?_
  show win4_2.index t (0 : Fin 2) * 5000 + 1 * (j 0).val = t.val * 5000 + (j 0).val; omega

/-- A row index is in point `t`'s block iff each coordinate is in the block's range on its axis. -/
theorem mem_blk (t : Fin cfg4.N) (i : S100000x1.Idx) :
    i ∈ ((cfg4.win 2).blk t).view.set ↔ ∀ a : Fin 2, win4_2.index t a * S5000x1.size a ≤ (i a).val ∧ (i a).val < win4_2.index t a * S5000x1.size a + S5000x1.size a := by
  show i ∈ ((View.whole main_v61).slice (win4_2.rect t)).set ↔ _
  rw [View.set_slice_whole, Rect.mem_set_unit]
  exact Iff.rfl

/-- The 20 blocks tile the column: row `e` is in the block of point `e / 5000`. -/
theorem covered (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 20 := N_4
  let t : Fin cfg4.N := ⟨(i 0).val / 5000, by rw [hN]; omega⟩
  obtain ⟨-, -, -, -, e4, e5⟩ := idx_facts t
  have ht : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 1 ≤ (i 1).val ∧ (i 1).val < win4_2.index t (1 : Fin 2) * 1 + 1; omega

/-- After the region its result array is the whole-array operation of its two input arrays as the region found them. -/
theorem arr (c : Dev nD) :
    (dat4 (F := Ideal) V c).arrAt 2 cfg4.N = KSpec.bias (F := Ideal) (V c main_v59) (V c main_v60) := by
  exact (dat4 (F := Ideal) V c).arrAt_eq_of_cover 2 (KSpec.bias (F := Ideal) (V c main_v59) (V c main_v60))
    (fun t _ => flushed_eq V c t) covered

end Cert.KernelIdeal.Reg4

end
-- ==== Proof.KVal.lean ====
/-
  What the kernel program leaves in its result array: the five kernel regions, each one whole-array operation of
  the arrays as it found them, threaded through the host stretches between them, give `KSpec.kernelVal` of the six
  argument arrays.
-/
import proofs.«117660_j18133351924184_1_alg».proof.Proof.KHost
import proofs.«117660_j18133351924184_1_alg».proof.Proof.Reg0
import proofs.«117660_j18133351924184_1_alg».proof.Proof.Reg1
import proofs.«117660_j18133351924184_1_alg».proof.Proof.Reg2
import proofs.«117660_j18133351924184_1_alg».proof.Proof.Reg3
import proofs.«117660_j18133351924184_1_alg».proof.Proof.Reg4

set_option maxRecDepth 16384

noncomputable section

namespace Cert.KernelIdeal.KVal

open Idealize.ShloMosaic Idealize.ShloMosaic.TcCoe Idealize.SL.Sem
open Cert.KernelIdeal Cert.KernelIdeal.Gen Cert.KernelIdeal.KHost

variable (m : (ℓ : Loc nD τ sig) → Buf (Elt Ideal) ℓ) (ρ : Dev nD → PrngReg) (c : Dev nD)

/-! ## Each region's result array at its exit, from the arrays at its entry -/

theorem W10_v34 : W10 m ρ c (Proc.devRef .tc main_v34) = KSpec.lin1 (F := Ideal) (W9 m ρ c (Proc.devRef .tc main_arg0)) (W9 m ρ c (Proc.devRef .tc main_arg2)) :=
  (W10_arr m ρ c 2).trans (Reg0.arr (V9 m ρ) c)
theorem W12_v42 : W12 m ρ c (Proc.devRef .tc main_v42) = KSpec.scale (F := Ideal) (W11 m ρ c (Proc.devRef .tc main_v41)) (W11 m ρ c (Proc.devRef .tc main_v33)) :=
  (W12_arr m ρ c 2).trans (Reg1.arr (V11 m ρ) c)
theorem W14_v47 : W14 m ρ c (Proc.devRef .tc main_v47) = KSpec.biasRelu (F := Ideal) (W13 m ρ c (Proc.devRef .tc main_v45)) (W13 m ρ c (Proc.devRef .tc main_v46)) :=
  (W14_arr m ρ c 2).trans (Reg2.arr (V13 m ρ) c)
theorem W15_v48 : W15 m ρ c (Proc.devRef .tc main_v48) = KSpec.lin2 (F := Ideal) (W14 m ρ c (Proc.devRef .tc main_v47)) (W14 m ρ c (Proc.devRef .tc main_arg4)) :=
  (W15_arr m ρ c 2).trans (Reg3.arr (V14 m ρ) c)
theorem W17_v61 : W17 m ρ c (Proc.devRef .tc main_v61) = KSpec.bias (F := Ideal) (W16 m ρ c (Proc.devRef .tc main_v59)) (W16 m ρ c (Proc.devRef .tc main_v60)) :=
  (W17_arr m ρ c 2).trans (Reg4.arr (V16 m ρ) c)

/-! ## The two layers, then the whole -/

/-- Layer 1's sum per node, as region 2 finds it. -/
theorem W13_v45_val : W13 m ρ c (Proc.devRef .tc main_v45)
    = KSpec.layer16 (F := Ideal) (KSpec.lin1 (m ((c.tc : Thread nD τ).loc main_arg0)) (m ((c.tc : Thread nD τ).loc main_arg2))) (KSpec.src (m ((c.tc : Thread nD τ).loc main_arg1))) (KSpec.dst (m ((c.tc : Thread nD τ).loc main_arg1))) (KSpec.norm (KSpec.src (m ((c.tc : Thread nD τ).loc main_arg1))) (KSpec.dst (m ((c.tc : Thread nD τ).loc main_arg1)))) := by
  rw [W13_v45, W12_v31_of6, W6_v31, W12_v42, W11_v41, W11_v33_of9, W9_v33, W10_v34, W10_v30_of4, W4_v30, W9_arg0_of0, W9_arg2_of0]
  rfl

/-- The hidden array: region 2's result. -/
theorem W14_v47_val : W14 m ρ c (Proc.devRef .tc main_v47)
    = KSpec.biasRelu (F := Ideal) (KSpec.layer16 (KSpec.lin1 (m ((c.tc : Thread nD τ).loc main_arg0)) (m ((c.tc : Thread nD τ).loc main_arg2))) (KSpec.src (m ((c.tc : Thread nD τ).loc main_arg1))) (KSpec.dst (m ((c.tc : Thread nD τ).loc main_arg1))) (KSpec.norm (KSpec.src (m ((c.tc : Thread nD τ).loc main_arg1))) (KSpec.dst (m ((c.tc : Thread nD τ).loc main_arg1)))))
        (KSpec.row16 (m ((c.tc : Thread nD τ).loc main_arg3))) := by
  rw [W14_v47, W13_v45_val, W13_v46, W12_arg3_of0]

/-- Layer 2's sum per node, as region 4 finds it. -/
theorem W16_v59_val : W16 m ρ c (Proc.devRef .tc main_v59)
    = KSpec.layer1 (F := Ideal) (KSpec.lin2 (KSpec.biasRelu (KSpec.layer16 (KSpec.lin1 (m ((c.tc : Thread nD τ).loc main_arg0)) (m ((c.tc : Thread nD τ).loc main_arg2))) (KSpec.src (m ((c.tc : Thread nD τ).loc main_arg1))) (KSpec.dst (m ((c.tc : Thread nD τ).loc main_arg1))) (KSpec.norm (KSpec.src (m ((c.tc : Thread nD τ).loc main_arg1))) (KSpec.dst (m ((c.tc : Thread nD τ).loc main_arg1)))))
        (KSpec.row16 (m ((c.tc : Thread nD τ).loc main_arg3)))) (m ((c.tc : Thread nD τ).loc main_arg4))) (KSpec.src (m ((c.tc : Thread nD τ).loc main_arg1))) (KSpec.dst (m ((c.tc : Thread nD τ).loc main_arg1))) (KSpec.norm (KSpec.src (m ((c.tc : Thread nD τ).loc main_arg1))) (KSpec.dst (m ((c.tc : Thread nD τ).loc main_arg1)))) := by
  rw [W16_v59, W15_v31_of6, W6_v31, W15_v30_of4, W4_v30, W15_v33_of9, W9_v33, W15_v48, W14_v47_val, W14_arg4_of0]
  rfl

/-- The result array after the last region. -/
theorem result : W17 m ρ c (Proc.devRef .tc main_v61)
    = KSpec.kernelVal (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [W17_v61, W16_v59_val, W16_v60, W15_arg5_of0]
  rfl

end Cert.KernelIdeal.KVal

end
-- ==== Proof.RSpec.lean ====
/-
  The reference program's result, named piece by piece over whole arrays: the two ends of every edge slot, the
  degrees, the coefficients `dis[src] · dis[dst]`, and the two graph-convolution layers (gather the source
  rows, scale each by its slot's coefficient, sum per destination, add the bias).
-/
import proofs.«117660_j18133351924184_1_alg».proof.ReferenceIdeal
import proofs.«117660_j18133351924184_1_alg».proof.Proof.Gen.ReferenceIdeal
import Idealize.ShloMosaic.PureOps.Ideal

noncomputable section

namespace Cert.ReferenceIdeal.RSpec

open Idealize.ShloMosaic Idealize.ShloMosaic.TcCoe Idealize.SL.Sem Cert.ReferenceIdeal Cert.ReferenceIdeal.Facts₀

variable {F : FTy → Type} [FloatOps F]

/-- Row `r` of the edge list followed by the self loops `0 … 99999`. -/
def endsOf (r : Fin 2 → Nat) (hs : S2x3200000.Slices r S1x3200000) (a1 : IVec S2x3200000 32) : IVec S3300000 32 :=
  concatenate S3300000 0 [⟨S3200000, shapeCast S3200000 (extractStridedSlice S1x3200000 r a1 hs) shapeCasts_S1x3200000_S3200000⟩,
    ⟨S100000, iotaInDim S100000 32 0⟩] concatenates_S3200000_S100000_S3300000_d0

/-- The sources: row 0 of the edge list, then the self loops. -/
def src (a1 : IVec S2x3200000 32) : IVec S3300000 32 := endsOf ![0, 0] slices_S2x3200000_S1x3200000_0_0 a1
/-- The destinations: row 1 of the edge list, then the self loops. -/
def dst (a1 : IVec S2x3200000 32) : IVec S3300000 32 := endsOf ![1, 0] slices_S2x3200000_S1x3200000_1_0 a1

/-- A negative node number wraps once: `v + 100000` where `v < 0`. -/
def wrap (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- The degree of every node: one per edge slot that ends there. -/
def deg (d : IVec S3300000 32) : FVec F S100000 .f32 :=
  Host.scatterAdd scatter_S100000_S3300000x1_S3300000_n_0_0_1 (broadcastInDim S100000 ![] bcast_S_S100000 (constant S_ .f32 0x00000000#32))
    (broadcastInDim S3300000x1 ![0] bcast_S3300000_S3300000x1_0 d) (broadcastInDim S3300000 ![] bcast_S_S3300000 (constant S_ .f32 0x3F800000#32))
/-- `deg ^ (-1/2)` where the degree is positive, else 0. -/
def dis (d : IVec S3300000 32) : FVec F S100000 .f32 :=
  select (cmpf (F := F) .ogt (deg d) (broadcastInDim S100000 ![] bcast_S_S100000 (constant S_ .f32 0x00000000#32))) (Host.rsqrt (deg d))
    (broadcastInDim S100000 ![] bcast_S_S100000 (id (constant S_ .f32 0x00000000#32)))
/-- The coefficient of every edge slot: `dis[src] · dis[dst]`. -/
def norm (s d : IVec S3300000 32) : FVec F S3300000 .f32 :=
  mulf (Host.gather gather_S100000_S3300000x1_S3300000_n_0_n_n_0_1_1 (dis d) (broadcastInDim S3300000x1 ![0] bcast_S3300000_S3300000x1_0 (wrap s)))
    (Host.gather gather_S100000_S3300000x1_S3300000_n_0_n_n_0_1_1 (dis d) (broadcastInDim S3300000x1 ![0] bcast_S3300000_S3300000x1_0 (wrap d)))

/-- Layer 1's aggregation: the source rows of a 16-wide node array, each scaled by its slot's coefficient, summed
    per destination. -/
def layer16 (h : FVec F S100000x16 .f32) (s d : IVec S3300000 32) (n : FVec F S3300000 .f32) : FVec F S100000x16 .f32 :=
  Host.scatterAdd scatter_S100000x16_S3300000x1_S3300000x16_1_0_0_1 (broadcastInDim S100000x16 ![] bcast_S_S100000x16 (constant S_ .f32 0x00000000#32))
    (broadcastInDim S3300000x1 ![0] bcast_S3300000_S3300000x1_0 d)
    (mulf (Host.gather gather_S100000x16_S3300000x1_S3300000x16_1_0_n_n_0_1_116 h (broadcastInDim S3300000x1 ![0] bcast_S3300000_S3300000x1_0 (wrap s)))
      (broadcastInDim S3300000x16 ![0, 1] bcast_S3300000x1_S3300000x16_0_1 (broadcastInDim S3300000x1 ![0] bcast_S3300000_S3300000x1_0 n)))
/-- Layer 2's aggregation, over a 1-wide node array. -/
def layer1 (h : FVec F S100000x1 .f32) (s d : IVec S3300000 32) (n : FVec F S3300000 .f32) : FVec F S100000x1 .f32 :=
  Host.scatterAdd scatter_S100000x1_S3300000x1_S3300000x1_1_0_0_1 (broadcastInDim S100000x1 ![] bcast_S_S100000x1 (constant S_ .f32 0x00000000#32))
    (broadcastInDim S3300000x1 ![0] bcast_S3300000_S3300000x1_0 d)
    (mulf (Host.gather gather_S100000x1_S3300000x1_S3300000x1_1_0_n_n_0_1_11 h (broadcastInDim S3300000x1 ![0] bcast_S3300000_S3300000x1_0 (wrap s)))
      (broadcastInDim S3300000x1 ![0] bcast_S3300000_S3300000x1_0 n))

/-- The bias `[16]` added to every row, then the maximum with 0. -/
def biasRelu (a : FVec F S100000x16 .f32) (b : FVec F S16 .f32) : FVec F S100000x16 .f32 :=
  maximumf (addf a (broadcastInDim S100000x16 ![0, 1] bcast_S1x16_S100000x16_0_1 (broadcastInDim S1x16 ![1] bcast_S16_S1x16_1 b)))
    (broadcastInDim S100000x16 ![] bcast_S_S100000x16 (constant S_ .f32 0x00000000#32))
/-- The bias `[1]` added to every row. -/
def bias (a : FVec F S100000x1 .f32) (b : FVec F S1 .f32) : FVec F S100000x1 .f32 :=
  addf a (broadcastInDim S100000x1 ![0, 1] bcast_S1x1_S100000x1_0_1 (broadcastInDim S1x1 ![1] bcast_S1_S1x1_1 b))

/-- The reference's result as a function of its six arguments. -/
def refVal (x : FVec F S100000x3 .f32) (a1 : IVec S2x3200000 32) (w1 : FVec F S3x16 .f32) (b1 : FVec F S16 .f32)
    (w2 : FVec F S16x1 .f32) (b2 : FVec F S1 .f32) : FVec F S100000x1 .f32 :=
  bias (layer1 (Host.dotGeneral dot_S100000x16_S16x1_S100000x1_1_0_0_1_n_n none
      (biasRelu (layer16 (Host.dotGeneral dot_S100000x3_S3x16_S100000x16_1_0_0_1_n_n none x w1) (src a1) (dst a1) (norm (src a1) (dst a1))) b1) w2)
    (src a1) (dst a1) (norm (src a1) (dst a1))) b2

end Cert.ReferenceIdeal.RSpec

end
-- ==== Proof.RefVal.lean ====
/-
  The reference's run ends with its result buffer at `RSpec.refVal` of the argument arrays.
-/
import proofs.«117660_j18133351924184_1_alg».proof.Proof.RefRun
import proofs.«117660_j18133351924184_1_alg».proof.Proof.RSpec

noncomputable section

namespace Cert.ReferenceIdeal.RSpec

open Idealize.ShloMosaic Idealize.ShloMosaic.TcCoe Idealize.SL.Sem Cert.ReferenceIdeal Cert.ReferenceIdeal.Facts₀

variable {F : FTy → Type} [FloatOps F]

set_option maxRecDepth 8192 in
/-- The run's composed term is that function of the argument arrays. -/
theorem res_eq (m : (ℓ : Loc nD τ sig) → Buf (Elt F) ℓ) (c : Dev nD) :
    RunP.res_main_v78 m c = refVal (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold RunP.res_main_v78 refVal bias layer1 biasRelu layer16 norm dis deg wrap src dst endsOf
  rfl

end Cert.ReferenceIdeal.RSpec

end
-- ==== Proof.Pad16.lean ====
/-
  Layer 1's aggregation over the padded edge slots equals the aggregation over the 3,300,000 real slots: a padding slot has coefficient 0, so its message is 0 and adds nothing to node 0; a real slot reads the same source row and lands on the same node in both programs.
-/
import proofs.«117660_j18133351924184_1_alg».proof.Proof.KSpec
import proofs.«117660_j18133351924184_1_alg».proof.Proof.RSpec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.Bridge.Pad16

open Idealize.ShloMosaic Idealize.SL.Sem Idealize.ShloMosaic.ValueIdx

/-! ## Where an update lands depends only on its start and its window coordinate -/

theorem resultIdx?_congr {s si u si' u' : Shape} (D : ScatterDims s si u) (D' : ScatterDims s si' u') {w : Nat}
    (j : u.Idx) (j' : u'.Idx) (idx : IVec si w) (idx' : IVec si' w)
    (hs : ∀ a, D.start j idx a = D'.start j' idx' a) (hw : ∀ a, D.window j a = D'.window j' a) :
    D.resultIdx? j idx = D'.resultIdx? j' idx' := by
  unfold ScatterDims.resultIdx?
  by_cases h : ∀ a, 0 ≤ D.start j idx a + D.window j a ∧ D.start j idx a + D.window j a < s.size a
  · have h' : ∀ a, 0 ≤ D'.start j' idx' a + D'.window j' a ∧ D'.start j' idx' a + D'.window j' a < s.size a :=
      fun a => by rw [← hs a, ← hw a]; exact h a
    rw [dif_pos h, dif_pos h']
    refine congrArg some (funext fun a => Fin.ext ?_)
    show (D.start j idx a + D.window j a).toNat = (D'.start j' idx' a + D'.window j' a).toNat
    rw [hs a, hw a]
  · have h' : ¬ ∀ a, 0 ≤ D'.start j' idx' a + D'.window j' a ∧ D'.start j' idx' a + D'.window j' a < s.size a :=
      fun h' => h fun a => by rw [hs a, hw a]; exact h' a
    rw [dif_neg h, dif_neg h']

/-! ## The scatter's dimension numbers, for any number of slots -/

/-- Scatter of 16-wide rows into a 100000 × 16 array at one row number per slot. -/
abbrev scD (N : Nat) (wf : ScatterDims.WF ⟨2, ![100000, 16]⟩ ⟨2, ![N, 1]⟩ ⟨2, ![N, 16]⟩ [1] [0] [0] 1) :
    ScatterDims ⟨2, ![100000, 16]⟩ ⟨2, ![N, 1]⟩ ⟨2, ![N, 16]⟩ where
  updateWindowDims := [1]
  insertedWindowDims := [0]
  scatterDimsToOperandDims := [0]
  indexVectorDim := 1
  wf := wf

section Scatter
variable {N : Nat} (wf : ScatterDims.WF ⟨2, ![100000, 16]⟩ ⟨2, ![N, 1]⟩ ⟨2, ![N, 16]⟩ [1] [0] [0] 1)

theorem scD_start0 {w : Nat} (idx : IVec ⟨2, ![N, 1]⟩ w) (e : Fin N) (k : Fin 16) :
    (scD N wf).start (ix2 e k) idx 0 = (idx (ix2 e (0 : Fin 1))).toInt := by
  unfold ScatterDims.start
  rw [dif_pos (show (0 : Fin 2) ∈ (scD N wf).scatterDimsToOperandDims from List.mem_singleton.mpr rfl)]
  have hsi : (scD N wf).siIdx (ix2 e k) ⟨List.idxOf (0 : Fin 2) (scD N wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scD_start1 {w : Nat} (idx : IVec ⟨2, ![N, 1]⟩ w) (j : (⟨2, ![N, 16]⟩ : Shape).Idx) :
    (scD N wf).start j idx 1 = 0 := by
  unfold ScatterDims.start
  rw [dif_neg (show ¬ (1 : Fin 2) ∈ ([0] : List (Fin 2)) by decide)]

theorem scD_window0 (j : (⟨2, ![N, 16]⟩ : Shape).Idx) : (scD N wf).window j 0 = 0 := by
  unfold ScatterDims.window
  rw [dif_neg (show ¬ (0 : Fin 2) ∈ (⟨2, ![100000, 16]⟩ : Shape).kept ([0] : List (Fin 2)) by decide)]

theorem scD_window1 (e : Fin N) (k : Fin 16) : (scD N wf).window (ix2 e k) 1 = k.val := by
  unfold ScatterDims.window
  rw [dif_pos (show (1 : Fin 2) ∈ (⟨2, ![100000, 16]⟩ : Shape).kept ([0] : List (Fin 2)) by decide)]
  rfl

end Scatter

/-! ## The gather's dimension numbers, for any number of slots -/

/-- Gather of 16-wide rows of a 100000 × 16 array at one row number per slot. -/
abbrev gaD (N : Nat) (wf : GatherDims.WF ⟨2, ![100000, 16]⟩ ⟨2, ![N, 1]⟩ ⟨2, ![N, 16]⟩ [1] [0] [] [0] [] 1 ![1, 16]) :
    GatherDims ⟨2, ![100000, 16]⟩ ⟨2, ![N, 1]⟩ ⟨2, ![N, 16]⟩ where
  offsetDims := [1]
  collapsedSliceDims := [0]
  operandBatchingDims := []
  startIndicesBatchingDims := []
  startIndexMap := [0]
  indexVectorDim := 1
  sliceSizes := ![1, 16]
  wf := wf

section Gather
variable {α : Type} {N : Nat}
  (wf : GatherDims.WF ⟨2, ![100000, 16]⟩ ⟨2, ![N, 1]⟩ ⟨2, ![N, 16]⟩ [1] [0] [] [0] [] 1 ![1, 16])

/-- The row an edge slot reads: its start index, read signed and clamped into the rows. -/
def rowOf {w : Nat} (b : BitVec w) : Fin 100000 := ⟨min b.toInt.toNat 99999, by omega⟩

/-- The gather read at slot e, column k: the operand at the slot's row, column k. -/
theorem gaD_apply {w : Nat} (x : (⟨2, ![100000, 16]⟩ : Shape).Idx → α) (idx : IVec ⟨2, ![N, 1]⟩ w) (e : Fin N) (k : Fin 16) :
    Host.gather (gaD N wf) x idx (ix2 e k) = x (ix2 (rowOf (idx (ix2 e (0 : Fin 1)))) k) := by
  unfold Host.gather
  refine congrArg x (funext fun a => Fin.ext ?_)
  match a with
  | ⟨0, _⟩ =>
    show (gaD N wf).start (ix2 e k) idx 0 + (gaD N wf).batchCoord (ix2 e k) 0 + (gaD N wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gaD N wf).startIndexMap from List.mem_singleton.mpr rfl)]
    have hsi : (gaD N wf).siIdx (ix2 e k) ⟨List.idxOf (0 : Fin 2) (gaD N wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gaD N wf).start (ix2 e k) idx 1 + (gaD N wf).batchCoord (ix2 e k) 1 + (gaD N wf).offCoord (ix2 e k) 1 = k.val
    rw [GatherDims.batchCoord_eq_zero _ _ _ List.not_mem_nil]
    have hst : (gaD N wf).start (ix2 e k) idx 1 = 0 := by
      unfold GatherDims.start
      rw [dif_neg (show ¬ (1 : Fin 2) ∈ ([0] : List (Fin 2)) by decide)]
    have hoff : (gaD N wf).offCoord (ix2 e k) 1 = k.val := by
      unfold GatherDims.offCoord
      rw [dif_pos (show (1 : Fin 2) ∈ (⟨2, ![100000, 16]⟩ : Shape).kept (([0] : List (Fin 2)) ++ []) by decide)]
      rfl
    rw [hst, hoff]
    omega

end Gather

/-! ## The index and coefficient arrays read at a slot -/

section Reads
open Cert.KernelIdeal Cert.KernelIdeal.Facts₀

/-- A slot below 3300000 among the padded slots. -/
def up (e : Fin 3300000) : Fin 3301376 := Fin.castLE (by omega) e

theorem up_val (e : Fin 3300000) : (up e).val = e.val := rfl

/-- Padded node numbers at a real slot: the node number. -/
theorem padI_real (v : IVec S3300000 32) (e : Fin 3300000) : KSpec.padI v (ix1 (up e)) = v (ix1 e) := by
  unfold KSpec.padI
  refine pad_apply_of_inside _ _ _ v _ _ _ _ (ix1 e) (fun a => ?_)
  match a with
  | ⟨0, _⟩ => show e.val = 0 + e.val * (0 + 1); omega

/-- Padded node numbers at a padding slot: 0. -/
theorem padI_pad (v : IVec S3300000 32) (e : Fin 3301376) (he : 3300000 ≤ e.val) : KSpec.padI v (ix1 e) = 0#32 := by
  unfold KSpec.padI
  refine (pad_apply_of_not_inside _ _ _ v _ _ _ (ix1 e) (0 : Fin 1) (fun h => ?_)).trans rfl
  have h3 : (e.val - 0) / (0 + 1) < 3300000 := h.2.2
  omega

/-- The padded coefficient column at a real slot: the coefficient. -/
theorem padCol_real (n : FVec Ideal S3300000 .f32) (e : Fin 3300000) :
    KSpec.padCol (F := Ideal) n (ix2 (up e) (0 : Fin 1)) = n (ix1 e) := by
  unfold KSpec.padCol
  refine (shapeCast_apply _ _ (ix2 (up e) (0 : Fin 1)) (ix1 (up e)) ?_).trans ?_
  · rw [Shape.rowMajor_val_one, Shape.rowMajor_val_two]
    show e.val = e.val * 1 + 0
    omega
  · refine pad_apply_of_inside _ _ _ n _ _ _ _ (ix1 e) (fun a => ?_)
    match a with
    | ⟨0, _⟩ => show e.val = 0 + e.val * (0 + 1); omega

/-- The padded coefficient column at a padding slot: 0. -/
theorem padCol_pad (n : FVec Ideal S3300000 .f32) (e : Fin 3301376) (he : 3300000 ≤ e.val) :
    KSpec.padCol (F := Ideal) n (ix2 e (0 : Fin 1)) = 0 := by
  unfold KSpec.padCol
  refine (shapeCast_apply _ _ (ix2 e (0 : Fin 1)) (ix1 e) ?_).trans ?_
  · rw [Shape.rowMajor_val_one, Shape.rowMajor_val_two]
    show e.val = e.val * 1 + 0
    omega
  · refine (pad_apply_of_not_inside _ _ _ n _ _ _ (ix1 e) (0 : Fin 1) (fun h => ?_)).trans ?_
    · have h3 : (e.val - 0) / (0 + 1) < 3300000 := h.2.2
      omega
    · exact sitofp_zero

end Reads

/-! ## Broadcasts of a slot array read at a slot -/

section Bcast
variable {α : Type} {N : Nat}

/-- A slot array as a column, read at slot e: the array at e. -/
theorem bcol_apply (hN : N ≠ 1) (h : (⟨1, ![N]⟩ : Shape).BroadcastsInDim ⟨2, ![N, 1]⟩ ![0])
    (v : (⟨1, ![N]⟩ : Shape).Idx → α) (e : Fin N) (z : Fin 1) :
    broadcastInDim ⟨2, ![N, 1]⟩ ![0] h v (ix2 e z) = v (ix1 e) := by
  refine broadcastInDim_apply _ _ _ _ (ix1 e) (fun a => ?_)
  match a with
  | ⟨0, _⟩ => exact (if_neg hN).symm

/-- A column spread over 16 columns, read at slot e, column k: the column at e. -/
theorem brow_apply (hN : N ≠ 1) (h : (⟨2, ![N, 1]⟩ : Shape).BroadcastsInDim ⟨2, ![N, 16]⟩ ![0, 1])
    (c : (⟨2, ![N, 1]⟩ : Shape).Idx → α) (e : Fin N) (k : Fin 16) :
    broadcastInDim ⟨2, ![N, 16]⟩ ![0, 1] h c (ix2 e k) = c (ix2 e (0 : Fin 1)) := by
  refine broadcastInDim_apply _ _ _ _ (ix2 e (0 : Fin 1)) (fun a => ?_)
  match a with
  | ⟨0, _⟩ => exact (if_neg hN).symm
  | ⟨1, _⟩ => rfl

end Bcast

/-- A node number wrapped once depends only on the node number. -/
theorem wrap_congr (v : IVec Cert.KernelIdeal.S3301376 32) (v' : IVec Cert.ReferenceIdeal.S3300000 32)
    (i : Cert.KernelIdeal.S3301376.Idx) (i' : Cert.ReferenceIdeal.S3300000.Idx) (h : v i = v' i') :
    Cert.KernelIdeal.KSpec.wrapP v i = Cert.ReferenceIdeal.RSpec.wrap v' i' := by
  show Scalar.select (IntOp.cmpi .slt (v i) 0#32) (IntOp.addi (v i) 100000#32) (v i)
    = Scalar.select (IntOp.cmpi .slt (v' i') 0#32) (IntOp.addi (v' i') 100000#32) (v' i')
  rw [h]

/-! ## The two sums -/

/-- A real update index among the padded ones. -/
def emb (j : (⟨2, ![3300000, 16]⟩ : Shape).Idx) : (⟨2, ![3301376, 16]⟩ : Shape).Idx := ix2 (up (j 0)) (j 1)

theorem emb_ix2 (e : Fin 3300000) (k : Fin 16) : emb (ix2 e k) = ix2 (up e) k := rfl

section Join
variable (wfK : ScatterDims.WF ⟨2, ![100000, 16]⟩ ⟨2, ![3301376, 1]⟩ ⟨2, ![3301376, 16]⟩ [1] [0] [0] 1)
  (wfR : ScatterDims.WF ⟨2, ![100000, 16]⟩ ⟨2, ![3300000, 1]⟩ ⟨2, ![3300000, 16]⟩ [1] [0] [0] 1)
  (idxK : IVec ⟨2, ![3301376, 1]⟩ 32) (idxR : IVec ⟨2, ![3300000, 1]⟩ 32)
  (hidx : ∀ e : Fin 3300000, idxK (ix2 (up e) (0 : Fin 1)) = idxR (ix2 e (0 : Fin 1)))

include hidx in
/-- A real slot's update lands on the same node in both scatters. -/
theorem land_eq (e : Fin 3300000) (k : Fin 16) :
    (scD 3301376 wfK).resultIdx? (ix2 (up e) k) idxK = (scD 3300000 wfR).resultIdx? (ix2 e k) idxR := by
  refine resultIdx?_congr _ _ _ _ _ _ (fun a => ?_) (fun a => ?_)
  · match a with
    | ⟨0, _⟩ =>
      exact (scD_start0 wfK idxK (up e) k).trans
        ((congrArg BitVec.toInt (hidx e)).trans (scD_start0 wfR idxR e k).symm)
    | ⟨1, _⟩ => exact (scD_start1 wfK idxK _).trans (scD_start1 wfR idxR _).symm
  · match a with
    | ⟨0, _⟩ => exact (scD_window0 wfK _).trans (scD_window0 wfR _).symm
    | ⟨1, _⟩ => exact (scD_window1 wfK (up e) k).trans (scD_window1 wfR e k).symm

include hidx in
/-- The padded scatter-add is the unpadded one when the padding updates are 0 and the real ones agree. -/
theorem scatter_join (x0 : (⟨2, ![100000, 16]⟩ : Shape).Idx → EReal)
    (updK : (⟨2, ![3301376, 16]⟩ : Shape).Idx → EReal) (updR : (⟨2, ![3300000, 16]⟩ : Shape).Idx → EReal)
    (hupd : ∀ (e : Fin 3300000) (k : Fin 16), updK (ix2 (up e) k) = updR (ix2 e k))
    (hzero : ∀ (e : Fin 3301376) (k : Fin 16), 3300000 ≤ e.val → updK (ix2 e k) = 0) :
    Ideal.hostScatterAdd (scD 3301376 wfK) x0 idxK updK = Ideal.hostScatterAdd (scD 3300000 wfR) x0 idxR updR := by
  funext i
  unfold Ideal.hostScatterAdd
  refine congrArg (x0 i + ·) ?_
  symm
  refine Finset.sum_bij_ne_zero (fun j _ _ => emb j) ?_ ?_ ?_ ?_
  · intro j hj _
    obtain ⟨e, k, rfl⟩ : ∃ (e : Fin 3300000) (k : Fin 16), j = ix2 e k := ⟨j 0, j 1, eq_ix2 j⟩
    rw [Finset.mem_filter] at hj ⊢
    refine ⟨Finset.mem_univ _, ?_⟩
    rw [emb_ix2, land_eq wfK wfR idxK idxR hidx e k]
    exact hj.2
  · intro j₁ _ _ j₂ _ _ h
    obtain ⟨e₁, k₁, rfl⟩ : ∃ (e : Fin 3300000) (k : Fin 16), j₁ = ix2 e k := ⟨j₁ 0, j₁ 1, eq_ix2 j₁⟩
    obtain ⟨e₂, k₂, rfl⟩ : ∃ (e : Fin 3300000) (k : Fin 16), j₂ = ix2 e k := ⟨j₂ 0, j₂ 1, eq_ix2 j₂⟩
    rw [emb_ix2, emb_ix2] at h
    have h0 : up e₁ = up e₂ := congrFun h 0
    have h1 : k₁ = k₂ := congrFun h 1
    have h0' : e₁ = e₂ := Fin.ext (by have := congrArg Fin.val h0; rwa [up_val, up_val] at this)
    rw [h0', h1]
  · intro b hb hne
    obtain ⟨e', k, rfl⟩ : ∃ (e : Fin 3301376) (k : Fin 16), b = ix2 e k := ⟨b 0, b 1, eq_ix2 b⟩
    by_cases he : e'.val < 3300000
    · have hup : up ⟨e'.val, he⟩ = e' := Fin.ext rfl
      refine ⟨ix2 (⟨e'.val, he⟩ : Fin 3300000) k, ?_, ?_, ?_⟩
      · rw [Finset.mem_filter] at hb ⊢
        refine ⟨Finset.mem_univ _, ?_⟩
        rw [← land_eq wfK wfR idxK idxR hidx ⟨e'.val, he⟩ k, hup]
        exact hb.2
      · rw [← hupd ⟨e'.val, he⟩ k, hup]; exact hne
      · rw [emb_ix2, hup]
    · exact absurd (hzero e' k (by omega)) hne
  · intro j _ _
    obtain ⟨e, k, rfl⟩ : ∃ (e : Fin 3300000) (k : Fin 16), j = ix2 e k := ⟨j 0, j 1, eq_ix2 j⟩
    rw [emb_ix2]
    exact (hupd e k).symm

end Join

/-! ## Layer 1's aggregation -/

/-- The padded aggregation (16 wide) is the unpadded one. -/
theorem layer16_eq (h : FVec Ideal Cert.KernelIdeal.S100000x16 .f32) (s d : IVec Cert.KernelIdeal.S3300000 32) (n : FVec Ideal Cert.KernelIdeal.S3300000 .f32) :
    Cert.KernelIdeal.KSpec.layer16 (F := Ideal) h s d n = Cert.ReferenceIdeal.RSpec.layer16 (F := Ideal) h s d n := by
  unfold Cert.KernelIdeal.KSpec.layer16 Cert.KernelIdeal.KSpec.scat16 Cert.ReferenceIdeal.RSpec.layer16
  refine scatter_join (Cert.KernelIdeal.scatter_S100000x16_S3301376x1_S3301376x16_1_0_0_1).wf
    (Cert.ReferenceIdeal.scatter_S100000x16_S3300000x1_S3300000x16_1_0_0_1).wf _ _ (fun e => ?_) _ _ _
    (fun e k => ?_) (fun e k he => ?_)
  · -- the destination of a real slot
    refine (bcol_apply (by omega) _ _ (up e) 0).trans ((padI_real d e).trans (bcol_apply (by omega) _ _ e 0).symm)
  · -- the message of a real slot
    unfold Cert.KernelIdeal.KSpec.scale Cert.KernelIdeal.KSpec.gath16
    rw [mulf_apply, mulf_apply]
    refine congrArg₂ (· * ·) ?_ ?_
    · refine (gaD_apply (Cert.KernelIdeal.gather_S100000x16_S3301376x1_S3301376x16_1_0_n_n_0_1_116).wf h _ (up e) k).trans
        (Eq.trans ?_ (gaD_apply (Cert.ReferenceIdeal.gather_S100000x16_S3300000x1_S3300000x16_1_0_n_n_0_1_116).wf h _ e k).symm)
      refine congrArg (fun b => h (ix2 (rowOf b) k)) ?_
      refine (bcol_apply (by omega) _ _ (up e) 0).trans (Eq.trans ?_ (bcol_apply (by omega) _ _ e 0).symm)
      exact wrap_congr _ _ _ _ (padI_real s e)
    · refine (brow_apply (by omega) _ _ (up e) k).trans ((padCol_real n e).trans ?_)
      exact ((brow_apply (by omega) _ _ e k).trans (bcol_apply (by omega) _ _ e 0)).symm
  · -- the message of a padding slot
    unfold Cert.KernelIdeal.KSpec.scale
    rw [mulf_apply, brow_apply (by omega) _ _ e k, padCol_pad n e he, mul_zero]

end Cert.Bridge.Pad16

end
-- ==== Proof.Pad1.lean ====
/-
  Layer 2's aggregation over the padded edge slots equals the aggregation over the 3,300,000 real slots: a padding slot has coefficient 0, so its message is 0 and adds nothing to node 0; a real slot reads the same source row and lands on the same node in both programs.
-/
import proofs.«117660_j18133351924184_1_alg».proof.Proof.KSpec
import proofs.«117660_j18133351924184_1_alg».proof.Proof.RSpec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.Bridge.Pad1

open Idealize.ShloMosaic Idealize.SL.Sem Idealize.ShloMosaic.ValueIdx
open scoped BigOperators

/-! ## A filtered sum carried along an embedding of the index set -/

/-- A sum over the indices a with p a equals the sum over the indices b with q b when the map embeds the second
    index set in the first, keeps the predicate and the terms, and every index outside its image has a zero term. -/
theorem sum_filter_embed {A B : Type} [Fintype A] [Fintype B] (ι : B → A) (hι : Function.Injective ι)
    (p : A → Prop) (q : B → Prop) [DecidablePred p] [DecidablePred q] (f : A → EReal) (g : B → EReal)
    (hpq : ∀ b, p (ι b) ↔ q b) (hfg : ∀ b, f (ι b) = g b) (h0 : ∀ a, (∀ b, ι b ≠ a) → f a = 0) :
    ∑ a ∈ Finset.univ.filter p, f a = ∑ b ∈ Finset.univ.filter q, g b := by
  have h1 : ∑ b ∈ Finset.univ.filter q, g b = ∑ a ∈ (Finset.univ.filter q).map ⟨ι, hι⟩, f a := by
    rw [Finset.sum_map]
    exact Finset.sum_congr rfl (fun b _ => (hfg b).symm)
  rw [h1]
  symm
  apply Finset.sum_subset
  · intro a ha
    rw [Finset.mem_map] at ha
    obtain ⟨b, hb, rfl⟩ := ha
    rw [Finset.mem_filter] at hb ⊢
    exact ⟨Finset.mem_univ _, (hpq b).2 hb.2⟩
  · intro a ha hna
    apply h0
    intro b hb
    apply hna
    rw [Finset.mem_map]
    refine ⟨b, ?_, hb⟩
    rw [Finset.mem_filter] at ha ⊢
    subst hb
    exact ⟨Finset.mem_univ _, (hpq b).1 ha.2⟩

/-! ## Where a scatter's update lands depends on its start and window coordinates alone -/

/-- Two updates (of two scatters into one operand shape) with the same start and window coordinates land together. -/
theorem resultIdx?_congr {s si u si' u' : Shape} (d : ScatterDims s si u) (d' : ScatterDims s si' u') {w : Nat}
    (j : u.Idx) (j' : u'.Idx) (idx : IVec si w) (idx' : IVec si' w)
    (hs : ∀ a, d.start j idx a = d'.start j' idx' a) (hw : ∀ a, d.window j a = d'.window j' a) :
    d.resultIdx? j idx = d'.resultIdx? j' idx' := by
  unfold ScatterDims.resultIdx?
  by_cases h : ∀ a, 0 ≤ d.start j idx a + d.window j a ∧ d.start j idx a + d.window j a < s.size a
  · have h' : ∀ a, 0 ≤ d'.start j' idx' a + d'.window j' a ∧ d'.start j' idx' a + d'.window j' a < s.size a :=
      fun a => by rw [← hs a, ← hw a]; exact h a
    rw [dif_pos h, dif_pos h']
    refine congrArg some (funext fun a => Fin.ext ?_)
    show (d.start j idx a + d.window j a).toNat = (d'.start j' idx' a + d'.window j' a).toNat
    rw [hs a, hw a]
  · have h' : ¬ ∀ a, 0 ≤ d'.start j' idx' a + d'.window j' a ∧ d'.start j' idx' a + d'.window j' a < s.size a :=
      fun h' => h (fun a => by rw [hs a, hw a]; exact h' a)
    rw [dif_neg h, dif_neg h']

/-! ## The two scatters' start and window coordinates -/

/-- The kernel program's scatter over the padded slots. -/
abbrev dK := Cert.KernelIdeal.scatter_S100000x1_S3301376x1_S3301376x1_1_0_0_1
/-- The reference's scatter over the real slots. -/
abbrev dR := Cert.ReferenceIdeal.scatter_S100000x1_S3300000x1_S3300000x1_1_0_0_1
/-- The kernel program's gather over the padded slots. -/
abbrev gK := Cert.KernelIdeal.gather_S100000x1_S3301376x1_S3301376x1_1_0_n_n_0_1_11
/-- The reference's gather over the real slots. -/
abbrev gR := Cert.ReferenceIdeal.gather_S100000x1_S3300000x1_S3300000x1_1_0_n_n_0_1_11

/-- Column 0 of the index column. -/
abbrev c0 : Fin 1 := ⟨0, Nat.one_pos⟩

theorem dK_start0 (idx : IVec Cert.KernelIdeal.S3301376x1 32) (e : Fin 3301376) (k : Fin 1) :
    dK.start (ix2 e k) idx 0 = (idx (ix2 e c0)).toInt := by
  unfold ScatterDims.start
  rw [dif_pos (show (0 : Fin 2) ∈ dK.scatterDimsToOperandDims from List.mem_singleton.mpr rfl)]
  have hsi : dK.siIdx (ix2 e k) ⟨List.idxOf (0 : Fin 2) dK.scatterDimsToOperandDims,
      List.idxOf_lt_length_iff.2 (List.mem_singleton.mpr rfl)⟩ = ix2 e c0 := by
    funext b; refine Fin.ext ?_
    match b with
    | ⟨0, _⟩ => rfl
    | ⟨1, _⟩ => rfl
  rw [hsi]

theorem dK_start1 (idx : IVec Cert.KernelIdeal.S3301376x1 32) (e : Fin 3301376) (k : Fin 1) :
    dK.start (ix2 e k) idx 1 = 0 := by
  unfold ScatterDims.start
  rw [dif_neg (show ¬ (1 : Fin 2) ∈ dK.scatterDimsToOperandDims by decide)]

theorem dK_window0 (e : Fin 3301376) (k : Fin 1) : dK.window (ix2 e k) 0 = 0 := by
  unfold ScatterDims.window
  rw [dif_neg (show ¬ (0 : Fin 2) ∈ dK.sKept by decide)]

theorem dK_window1 (e : Fin 3301376) (k : Fin 1) : dK.window (ix2 e k) 1 = k.val := by
  unfold ScatterDims.window
  rw [dif_pos (show (1 : Fin 2) ∈ dK.sKept by decide)]
  rfl

theorem dR_start0 (idx : IVec Cert.ReferenceIdeal.S3300000x1 32) (e : Fin 3300000) (k : Fin 1) :
    dR.start (ix2 e k) idx 0 = (idx (ix2 e c0)).toInt := by
  unfold ScatterDims.start
  rw [dif_pos (show (0 : Fin 2) ∈ dR.scatterDimsToOperandDims from List.mem_singleton.mpr rfl)]
  have hsi : dR.siIdx (ix2 e k) ⟨List.idxOf (0 : Fin 2) dR.scatterDimsToOperandDims,
      List.idxOf_lt_length_iff.2 (List.mem_singleton.mpr rfl)⟩ = ix2 e c0 := by
    funext b; refine Fin.ext ?_
    match b with
    | ⟨0, _⟩ => rfl
    | ⟨1, _⟩ => rfl
  rw [hsi]

theorem dR_start1 (idx : IVec Cert.ReferenceIdeal.S3300000x1 32) (e : Fin 3300000) (k : Fin 1) :
    dR.start (ix2 e k) idx 1 = 0 := by
  unfold ScatterDims.start
  rw [dif_neg (show ¬ (1 : Fin 2) ∈ dR.scatterDimsToOperandDims by decide)]

theorem dR_window0 (e : Fin 3300000) (k : Fin 1) : dR.window (ix2 e k) 0 = 0 := by
  unfold ScatterDims.window
  rw [dif_neg (show ¬ (0 : Fin 2) ∈ dR.sKept by decide)]

theorem dR_window1 (e : Fin 3300000) (k : Fin 1) : dR.window (ix2 e k) 1 = k.val := by
  unfold ScatterDims.window
  rw [dif_pos (show (1 : Fin 2) ∈ dR.sKept by decide)]
  rfl

/-! ## A real slot among the padded ones -/

/-- Slot e of the real slots, as a padded slot. -/
def up (e : Fin 3300000) : Fin 3301376 := ⟨e.val, Nat.lt_of_lt_of_le e.isLt (by omega)⟩

/-- A real update index among the padded ones. -/
def emb (j : Cert.ReferenceIdeal.S3300000x1.Idx) : Cert.KernelIdeal.S3301376x1.Idx :=
  ix2 (up ⟨(j 0).val, idx2_lt0 j⟩) (⟨(j 1).val, idx2_lt1 j⟩ : Fin 1)

theorem emb_ix2 (e : Fin 3300000) (k : Fin 1) : emb (ix2 e k) = ix2 (up e) k := rfl

theorem emb_inj : Function.Injective emb := by
  intro j j' h
  have h0 : (j 0).val = (j' 0).val := congrArg (fun x : Cert.KernelIdeal.S3301376x1.Idx => (x 0).val) h
  have h1 : (j 1).val = (j' 1).val := congrArg (fun x : Cert.KernelIdeal.S3301376x1.Idx => (x 1).val) h
  funext a
  match a with
  | ⟨0, _⟩ => exact Fin.ext h0
  | ⟨1, _⟩ => exact Fin.ext h1

/-- A real slot lands where it does in the reference, when the two index columns agree on it. -/
theorem landing_emb (idxK : IVec Cert.KernelIdeal.S3301376x1 32) (idxR : IVec Cert.ReferenceIdeal.S3300000x1 32)
    (hidx : ∀ e : Fin 3300000, idxK (ix2 (up e) c0) = idxR (ix2 e c0)) (j : Cert.ReferenceIdeal.S3300000x1.Idx) :
    dK.resultIdx? (emb j) idxK = dR.resultIdx? j idxR := by
  obtain ⟨e, k, rfl⟩ : ∃ (e : Fin 3300000) (k : Fin 1), j = ix2 e k := ⟨j 0, j 1, eq_ix2 j⟩
  rw [emb_ix2]
  refine resultIdx?_congr dK dR _ _ idxK idxR (fun a => ?_) (fun a => ?_)
  · match a with
    | ⟨0, _⟩ => exact (dK_start0 idxK (up e) k).trans ((congrArg BitVec.toInt (hidx e)).trans (dR_start0 idxR e k).symm)
    | ⟨1, _⟩ => exact (dK_start1 idxK (up e) k).trans (dR_start1 idxR e k).symm
  · match a with
    | ⟨0, _⟩ => exact (dK_window0 (up e) k).trans (dR_window0 e k).symm
    | ⟨1, _⟩ => exact (dK_window1 (up e) k).trans (dR_window1 e k).symm

/-- THE SCATTER SIDE: the padded scatter is the real one when the index columns agree on the real slots, the updates
    agree on the real slots, and the padded slots' updates are 0. -/
theorem scat_eq (x0 : FVec Ideal Cert.KernelIdeal.S100000x1 .f32)
    (idxK : IVec Cert.KernelIdeal.S3301376x1 32) (idxR : IVec Cert.ReferenceIdeal.S3300000x1 32)
    (updK : FVec Ideal Cert.KernelIdeal.S3301376x1 .f32) (updR : FVec Ideal Cert.ReferenceIdeal.S3300000x1 .f32)
    (hidx : ∀ e : Fin 3300000, idxK (ix2 (up e) c0) = idxR (ix2 e c0))
    (hupd : ∀ (e : Fin 3300000) (k : Fin 1), updK (ix2 (up e) k) = updR (ix2 e k))
    (hzero : ∀ (e : Fin 3301376) (k : Fin 1), 3300000 ≤ e.val → updK (ix2 e k) = 0) :
    Host.scatterAdd (F := Ideal) dK x0 idxK updK = Host.scatterAdd (F := Ideal) dR x0 idxR updR := by
  funext i
  unfold Host.scatterAdd
  rw [Ideal.hostScatterAdd_def, Ideal.hostScatterAdd_def]
  unfold Ideal.hostScatterAdd
  refine congrArg (fun z : EReal => x0 i + z) ?_
  refine sum_filter_embed emb emb_inj _ _ updK updR (fun j => ?_) (fun j => ?_) (fun j' hj' => ?_)
  · rw [landing_emb idxK idxR hidx j]
  · obtain ⟨e, k, rfl⟩ : ∃ (e : Fin 3300000) (k : Fin 1), j = ix2 e k := ⟨j 0, j 1, eq_ix2 j⟩
    rw [emb_ix2]
    exact hupd e k
  · obtain ⟨e, k, rfl⟩ : ∃ (e : Fin 3301376) (k : Fin 1), j' = ix2 e k := ⟨j' 0, j' 1, eq_ix2 j'⟩
    refine hzero e k ?_
    by_contra hlt
    have hlt' : e.val < 3300000 := Nat.lt_of_not_le hlt
    exact hj' (ix2 ⟨e.val, hlt'⟩ k) rfl

/-! ## The two gathers read at a slot -/

theorem gK_operand0 (idx : IVec Cert.KernelIdeal.S3301376x1 32) (e : Fin 3301376) (k : Fin 1) :
    (gK.operandIdx (ix2 e k) idx 0).val = min (idx (ix2 e c0)).toInt.toNat (100000 - 1) := by
  show gK.start (ix2 e k) idx 0 + gK.batchCoord (ix2 e k) 0 + gK.offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gK.startIndexMap from List.mem_singleton.mpr rfl)]
  have hsi : gK.siIdx (ix2 e k) ⟨List.idxOf (0 : Fin 2) gK.startIndexMap,
      List.idxOf_lt_length_iff.2 (List.mem_singleton.mpr rfl)⟩ = ix2 e c0 := by
    funext b; refine Fin.ext ?_
    match b with
    | ⟨0, _⟩ => rfl
    | ⟨1, _⟩ => rfl
  rw [hsi]
  rfl

theorem gK_operand1 (idx : IVec Cert.KernelIdeal.S3301376x1 32) (e : Fin 3301376) (k : Fin 1) :
    (gK.operandIdx (ix2 e k) idx 1).val = k.val := by
  show gK.start (ix2 e k) idx 1 + gK.batchCoord (ix2 e k) 1 + gK.offCoord (ix2 e k) 1 = _
  rw [GatherDims.batchCoord_eq_zero _ _ _ List.not_mem_nil]
  unfold GatherDims.start GatherDims.offCoord
  rw [dif_neg (show ¬ (1 : Fin 2) ∈ gK.startIndexMap by decide), dif_pos (show (1 : Fin 2) ∈ gK.sKept by decide)]
  simp only [Nat.zero_add, Nat.add_zero]
  rfl

theorem gR_operand0 (idx : IVec Cert.ReferenceIdeal.S3300000x1 32) (e : Fin 3300000) (k : Fin 1) :
    (gR.operandIdx (ix2 e k) idx 0).val = min (idx (ix2 e c0)).toInt.toNat (100000 - 1) := by
  show gR.start (ix2 e k) idx 0 + gR.batchCoord (ix2 e k) 0 + gR.offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gR.startIndexMap from List.mem_singleton.mpr rfl)]
  have hsi : gR.siIdx (ix2 e k) ⟨List.idxOf (0 : Fin 2) gR.startIndexMap,
      List.idxOf_lt_length_iff.2 (List.mem_singleton.mpr rfl)⟩ = ix2 e c0 := by
    funext b; refine Fin.ext ?_
    match b with
    | ⟨0, _⟩ => rfl
    | ⟨1, _⟩ => rfl
  rw [hsi]
  rfl

theorem gR_operand1 (idx : IVec Cert.ReferenceIdeal.S3300000x1 32) (e : Fin 3300000) (k : Fin 1) :
    (gR.operandIdx (ix2 e k) idx 1).val = k.val := by
  show gR.start (ix2 e k) idx 1 + gR.batchCoord (ix2 e k) 1 + gR.offCoord (ix2 e k) 1 = _
  rw [GatherDims.batchCoord_eq_zero _ _ _ List.not_mem_nil]
  unfold GatherDims.start GatherDims.offCoord
  rw [dif_neg (show ¬ (1 : Fin 2) ∈ gR.startIndexMap by decide), dif_pos (show (1 : Fin 2) ∈ gR.sKept by decide)]
  simp only [Nat.zero_add, Nat.add_zero]
  rfl

/-- THE GATHER SIDE: a real slot reads the same row in both programs when the index columns agree on it. -/
theorem gath_eq (h : FVec Ideal Cert.KernelIdeal.S100000x1 .f32)
    (idxK : IVec Cert.KernelIdeal.S3301376x1 32) (idxR : IVec Cert.ReferenceIdeal.S3300000x1 32)
    (e : Fin 3300000) (k : Fin 1) (hidx : idxK (ix2 (up e) c0) = idxR (ix2 e c0)) :
    Host.gather gK h idxK (ix2 (up e) k) = Host.gather gR h idxR (ix2 e k) := by
  unfold Host.gather
  refine congrArg h (funext fun a => Fin.ext ?_)
  match a with
  | ⟨0, _⟩ =>
    exact (gK_operand0 idxK (up e) k).trans
      ((congrArg (fun b : BitVec 32 => min b.toInt.toNat (100000 - 1)) hidx).trans (gR_operand0 idxR e k).symm)
  | ⟨1, _⟩ => exact (gK_operand1 idxK (up e) k).trans (gR_operand1 idxR e k).symm

/-! ## The padded arrays read at a slot -/

/-- A vector broadcast to a column reads its entry at the row. -/
theorem bcast_col_apply {α : Type} {N : Nat}
    (hb : (⟨1, ![N]⟩ : Shape).BroadcastsInDim ⟨2, ![N, 1]⟩ (![0] : Fin 1 → Fin 2))
    (v : (⟨1, ![N]⟩ : Shape).Idx → α) (e : Fin N) (k : Fin 1) :
    broadcastInDim ⟨2, ![N, 1]⟩ ![0] hb v (ix2 e k) = v (ix1 e) := by
  refine broadcastInDim_apply _ hb v (ix2 e k) (ix1 e) (fun a => ?_)
  match a with
  | ⟨0, _⟩ =>
    show e.val = if N = 1 then 0 else e.val
    split
    · have := e.isLt; omega
    · rfl

/-- The padded node numbers at a real slot are the node numbers. -/
theorem padI_up (v : IVec Cert.KernelIdeal.S3300000 32) (e : Fin 3300000) :
    Cert.KernelIdeal.KSpec.padI v (ix1 (up e)) = v (ix1 e) := by
  unfold Cert.KernelIdeal.KSpec.padI
  refine pad_apply_of_inside _ _ _ v _ _ _ (ix1 (up e)) (ix1 e) (fun a => ?_)
  match a with
  | ⟨0, _⟩ =>
    show e.val = 0 + e.val * (0 + 1)
    omega

/-- The wrapped padded sources at a real slot are the wrapped sources. -/
theorem wrapP_padI_up (s : IVec Cert.KernelIdeal.S3300000 32) (e : Fin 3300000) :
    Cert.KernelIdeal.KSpec.wrapP (Cert.KernelIdeal.KSpec.padI s) (ix1 (up e)) = Cert.ReferenceIdeal.RSpec.wrap s (ix1 e) := by
  unfold Cert.KernelIdeal.KSpec.wrapP Cert.ReferenceIdeal.RSpec.wrap
  show Scalar.select (IntOp.cmpi .slt (Cert.KernelIdeal.KSpec.padI s (ix1 (up e))) 0#32)
      (IntOp.addi (Cert.KernelIdeal.KSpec.padI s (ix1 (up e))) 100000#32) (Cert.KernelIdeal.KSpec.padI s (ix1 (up e)))
    = Scalar.select (IntOp.cmpi .slt (s (ix1 e)) 0#32) (IntOp.addi (s (ix1 e)) 100000#32) (s (ix1 e))
  rw [padI_up]

/-- The padded coefficient column at a real slot is the coefficient. -/
theorem padCol_up (n : FVec Ideal Cert.KernelIdeal.S3300000 .f32) (e : Fin 3300000) (k : Fin 1) :
    Cert.KernelIdeal.KSpec.padCol (F := Ideal) n (ix2 (up e) k) = n (ix1 e) := by
  unfold Cert.KernelIdeal.KSpec.padCol
  refine (shapeCast_apply _ _ (ix2 (up e) k) (ix1 (up e)) ?_).trans ?_
  · rw [Shape.rowMajor_val_one, Shape.rowMajor_val_two]
    show e.val = e.val * 1 + k.val
    have := k.isLt
    omega
  · refine pad_apply_of_inside _ _ _ n _ _ _ (ix1 (up e)) (ix1 e) (fun a => ?_)
    match a with
    | ⟨0, _⟩ =>
      show e.val = 0 + e.val * (0 + 1)
      omega

/-- The padded coefficient column at a padding slot is 0. -/
theorem padCol_pad (n : FVec Ideal Cert.KernelIdeal.S3300000 .f32) (e : Fin 3301376) (k : Fin 1) (he : 3300000 ≤ e.val) :
    Cert.KernelIdeal.KSpec.padCol (F := Ideal) n (ix2 e k) = 0 := by
  unfold Cert.KernelIdeal.KSpec.padCol
  refine (shapeCast_apply _ _ (ix2 e k) (ix1 e) ?_).trans ?_
  · rw [Shape.rowMajor_val_one, Shape.rowMajor_val_two]
    show e.val = e.val * 1 + k.val
    have := k.isLt
    omega
  · refine (pad_apply_of_not_inside _ _ _ n _ _ _ (ix1 e) ⟨0, Nat.one_pos⟩ ?_).trans ?_
    · intro h
      have h3 : (e.val - 0) / (0 + 1) < 3300000 := h.2.2
      omega
    · show ((((0#32 : BitVec 32).toInt : ℤ) : ℝ) : EReal) = 0
      simp

/-! ## The two aggregations -/

/-- The padded aggregation (1 wide) is the unpadded one. -/
theorem layer1_eq (h : FVec Ideal Cert.KernelIdeal.S100000x1 .f32) (s d : IVec Cert.KernelIdeal.S3300000 32) (n : FVec Ideal Cert.KernelIdeal.S3300000 .f32) :
    Cert.KernelIdeal.KSpec.layer1 (F := Ideal) h s d n = Cert.ReferenceIdeal.RSpec.layer1 (F := Ideal) h s d n := by
  unfold Cert.KernelIdeal.KSpec.layer1 Cert.KernelIdeal.KSpec.scat1 Cert.ReferenceIdeal.RSpec.layer1
  refine scat_eq _ _ _ _ _ (fun e => ?_) (fun e k => ?_) (fun e k he => ?_)
  · rw [bcast_col_apply, bcast_col_apply, padI_up]
  · refine (mulf_apply _ _ _).trans (Eq.trans ?_ (mulf_apply _ _ _).symm)
    refine congrArg₂ (fun x y : EReal => x * y) ?_ ?_
    · unfold Cert.KernelIdeal.KSpec.gath1
      refine gath_eq h _ _ e k ?_
      rw [bcast_col_apply, bcast_col_apply]
      exact wrapP_padI_up s e
    · rw [padCol_up, bcast_col_apply]
  · refine (mulf_apply _ _ _).trans ?_
    rw [padCol_pad n e k he, mul_zero]

end Cert.Bridge.Pad1

end
-- ==== Proof.Bias.lean ====
/-
  A bias vector reshaped to a row and the same vector broadcast to a row are one array, so the kernel's and the reference's bias steps agree; and the pieces the two programs share (edge ends, degrees, coefficients) are the same terms.
-/
import proofs.«117660_j18133351924184_1_alg».proof.Proof.KSpec
import proofs.«117660_j18133351924184_1_alg».proof.Proof.RSpec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.Bias

open Idealize.ShloMosaic Idealize.SL.Sem Idealize.ShloMosaic.ValueIdx

/-- A vector of 16 entries reshaped to one row and the same vector broadcast along the row are one array: both hold entry `k` in column `k`. -/
theorem row16_eq (b : FVec Ideal Cert.KernelIdeal.S16 .f32) :
    Cert.KernelIdeal.KSpec.row16 (F := Ideal) b
      = broadcastInDim Cert.ReferenceIdeal.S1x16 ![1] Cert.ReferenceIdeal.Facts₀.bcast_S16_S1x16_1 b := by
  funext j
  obtain ⟨z, k, rfl⟩ : ∃ (z : Fin 1) (k : Fin 16), j = ix2 z k := ⟨j 0, j 1, eq_ix2 j⟩
  unfold Cert.KernelIdeal.KSpec.row16
  rw [shapeCast_apply b Cert.KernelIdeal.Facts₀.shapeCasts_S16_S1x16 (ix2 z k) (ix1 k)
      (by rw [Shape.rowMajor_val_one, Shape.rowMajor_val_two]
          show k.val = z.val * 16 + k.val
          have := z.isLt; omega),
    broadcastInDim_apply ![1] Cert.ReferenceIdeal.Facts₀.bcast_S16_S1x16_1 b (ix2 z k) (ix1 k)
      (fun a => by match a with | ⟨0, _⟩ => rfl)]

/-- The same for a vector of one entry. -/
theorem row1_eq (b : FVec Ideal Cert.KernelIdeal.S1 .f32) :
    Cert.KernelIdeal.KSpec.row1 (F := Ideal) b
      = broadcastInDim Cert.ReferenceIdeal.S1x1 ![1] Cert.ReferenceIdeal.Facts₀.bcast_S1_S1x1_1 b := by
  funext j
  obtain ⟨z, k, rfl⟩ : ∃ (z : Fin 1) (k : Fin 1), j = ix2 z k := ⟨j 0, j 1, eq_ix2 j⟩
  unfold Cert.KernelIdeal.KSpec.row1
  rw [shapeCast_apply b Cert.KernelIdeal.Facts₀.shapeCasts_S1_S1x1 (ix2 z k) (ix1 k)
      (by rw [Shape.rowMajor_val_one, Shape.rowMajor_val_two]
          show k.val = z.val * 1 + k.val
          have := z.isLt; omega),
    broadcastInDim_apply ![1] Cert.ReferenceIdeal.Facts₀.bcast_S1_S1x1_1 b (ix2 z k) (ix1 k)
      (fun a => by match a with | ⟨0, _⟩ => show k.val = 0; omega)]

/-- Bias and ReLU: the kernel's row is the reference's. -/
theorem biasRelu_eq (a : FVec Ideal Cert.KernelIdeal.S100000x16 .f32) (b : FVec Ideal Cert.KernelIdeal.S16 .f32) :
    Cert.KernelIdeal.KSpec.biasRelu (F := Ideal) a (Cert.KernelIdeal.KSpec.row16 b) = Cert.ReferenceIdeal.RSpec.biasRelu (F := Ideal) a b := by
  unfold Cert.KernelIdeal.KSpec.biasRelu Cert.ReferenceIdeal.RSpec.biasRelu
  rw [row16_eq]

/-- The output bias: the kernel's row is the reference's. -/
theorem bias_eq (a : FVec Ideal Cert.KernelIdeal.S100000x1 .f32) (b : FVec Ideal Cert.KernelIdeal.S1 .f32) :
    Cert.KernelIdeal.KSpec.bias (F := Ideal) a (Cert.KernelIdeal.KSpec.row1 b) = Cert.ReferenceIdeal.RSpec.bias (F := Ideal) a b := by
  unfold Cert.KernelIdeal.KSpec.bias Cert.ReferenceIdeal.RSpec.bias
  rw [row1_eq]

theorem src_eq (a1 : IVec Cert.KernelIdeal.S2x3200000 32) : Cert.KernelIdeal.KSpec.src a1 = Cert.ReferenceIdeal.RSpec.src a1 := rfl
theorem dst_eq (a1 : IVec Cert.KernelIdeal.S2x3200000 32) : Cert.KernelIdeal.KSpec.dst a1 = Cert.ReferenceIdeal.RSpec.dst a1 := rfl
theorem norm_eq (s d : IVec Cert.KernelIdeal.S3300000 32) :
    Cert.KernelIdeal.KSpec.norm (F := Ideal) s d = Cert.ReferenceIdeal.RSpec.norm (F := Ideal) s d := rfl

end Cert.Bridge.Bias

end
-- ==== Proof.Bridge.lean ====
/-
  The kernel program's result and the reference's are one function of the six arguments: the linear layers are the
  same contractions, the bias rows the same arrays, and each layer's sum over the padded edge slots is the sum over
  the real ones (a padding slot carries coefficient 0).
-/
import proofs.«117660_j18133351924184_1_alg».proof.Proof.Pad16
import proofs.«117660_j18133351924184_1_alg».proof.Proof.Pad1
import proofs.«117660_j18133351924184_1_alg».proof.Proof.Bias

noncomputable section

namespace Cert.Bridge

open Idealize.ShloMosaic Idealize.SL.Sem

/-- The two programs' results agree as functions of the argument arrays, at the extended reals. -/
theorem kernelVal_eq (x : FVec Ideal Cert.KernelIdeal.S100000x3 .f32) (a1 : IVec Cert.KernelIdeal.S2x3200000 32)
    (w1 : FVec Ideal Cert.KernelIdeal.S3x16 .f32) (b1 : FVec Ideal Cert.KernelIdeal.S16 .f32)
    (w2 : FVec Ideal Cert.KernelIdeal.S16x1 .f32) (b2 : FVec Ideal Cert.KernelIdeal.S1 .f32) :
    Cert.KernelIdeal.KSpec.kernelVal (F := Ideal) x a1 w1 b1 w2 b2 = Cert.ReferenceIdeal.RSpec.refVal (F := Ideal) x a1 w1 b1 w2 b2 := by
  unfold Cert.KernelIdeal.KSpec.kernelVal Cert.ReferenceIdeal.RSpec.refVal
  rw [Pad16.layer16_eq, Bias.biasRelu_eq, Pad1.layer1_eq, Bias.bias_eq, Bias.src_eq, Bias.dst_eq, Bias.norm_eq]
  rfl

end Cert.Bridge

end
-- ==== Proof.lean ====
/-
  The certificate of a two-layer graph convolution (x ↦ Â · relu(Â · x W1 + b1) W2 + b2, Â the degree-normalised
  adjacency with self loops) whose kernel program runs the two linear layers, the message scale and the two bias
  steps as five pallas_calls around host gathers and per-node sums over edge slots PADDED from 3,300,000 to
  3,301,376, against a reference that does everything on the host over the unpadded slots.
  At the extended reals the two results are one function of the arguments: a block matmul into a zero accumulator
  is the host's contraction, a bias reshaped to a row is the bias broadcast to a row, and a padding slot carries
  coefficient 0, so its message is 0 · (row 0) = 0 and adds nothing to node 0's sum (0 · x = 0 for every extended
  real: no finiteness is used). The kernel program's run is read region by region (each region's result array is
  one whole-array operation of the arrays it found) and stretch by stretch; the reference's run is its composed
  term. The ideal pass rewrote nothing, so `preserves` is trivial.
-/
import proofs.«117660_j18133351924184_1_alg».proof.Defs
import proofs.«117660_j18133351924184_1_alg».proof.Proof.Gen.Kernel
import proofs.«117660_j18133351924184_1_alg».proof.Proof.Gen.Kernel.Skeleton
import proofs.«117660_j18133351924184_1_alg».proof.Proof.Gen.Kernel.Launch
import proofs.«117660_j18133351924184_1_alg».proof.Proof.Gen.Kernel.Points
import proofs.«117660_j18133351924184_1_alg».proof.Proof.Gen.Kernel.Frame
import proofs.«117660_j18133351924184_1_alg».proof.Proof.Gen.KernelIdeal
import proofs.«117660_j18133351924184_1_alg».proof.Proof.Gen.KernelIdeal.Skeleton
import proofs.«117660_j18133351924184_1_alg».proof.Proof.Gen.KernelIdeal.Launch
import proofs.«117660_j18133351924184_1_alg».proof.Proof.Gen.KernelIdeal.Points
import proofs.«117660_j18133351924184_1_alg».proof.Proof.Gen.KernelIdeal.Frame
import proofs.«117660_j18133351924184_1_alg».proof.Proof.Gen.ReferenceIdeal
import proofs.«117660_j18133351924184_1_alg».proof.Proof.Gen.Pre_finite_inputs
import proofs.«117660_j18133351924184_1_alg».proof.Proof.KRun
import proofs.«117660_j18133351924184_1_alg».proof.Proof.KVal
import proofs.«117660_j18133351924184_1_alg».proof.Proof.RefVal
import proofs.«117660_j18133351924184_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference runs and keeps its arguments: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end with the same result array, `KSpec.kernelVal` of the kernel program's arguments: the kernel
    program's last boundary holds it, and the reference's composed term is `RSpec.refVal` of arguments that agree. -/
theorem algebraic : Cert.algebraic_KernelIdeal_ReferenceIdeal := by
  intro m ρ m' ρ' _ hagree
  refine ⟨fun c => Cert.KernelIdeal.KSpec.kernelVal (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.KernelIdeal.KVal.result m ρ c), (h c).2⟩)
      (Cert.KernelIdeal.RunV.run_named (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.RSpec.res_eq, (hagree c).1, (hagree c).2.1, (hagree c).2.2.1, (hagree c).2.2.2.1, (hagree c).2.2.2.2.1, (hagree c).2.2.2.2.2]
    exact (Cert.Bridge.kernelVal_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
